-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S2x64x64 : Shape := ⟨3, ![2, 64, 64]⟩
abbrev S1x64 : Shape := ⟨2, ![1, 64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S2x1600000 : S_.BroadcastsInDim S2x1600000 (![] : Fin 0 → Fin S2x1600000.rank)
  reducesTo_S2x1600000_S_d0_1 : S2x1600000.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S2x64x64 .f32) (main_arg5 : FVec F S1x64 .f32) (main_v13 : IVec S_ 1) (main_v16 : IVec S2x1600000 1) : IVec S_ 1 :=
  let main_c_5 : IVec S_ 1 := constantI S_ 1 1#1
  let main_v17 : IVec S_ 1 := (fun x v => Host.reduce IntOp.andi x v reducesTo_S2x1600000_S_d0_1 h_S_) main_v16 main_c_5
  let main_v18 : IVec S_ 1 := andi main_v13 main_v17
  let main_v19 : FVec F S2x64x64 .f32 := Host.absf main_arg4
  let main_cst_6 : FVec F S_ .f32 := constant S_ .f32 0x7F800000#32
  let main_v20 : FVec F S2x64x64 .f32 := broadcastInDim S2x64x64 ![] bcast_S_S2x64x64 main_cst_6
  let main_v21 : IVec S2x64x64 1 := cmpf .olt main_v19 main_v20
  let main_c_7 : IVec S_ 1 := constantI S_ 1 1#1
  let main_v22 : IVec S_ 1 := (fun x v => Host.reduce IntOp.andi x v reducesTo_S2x64x64_S_d0_1_2 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  main_v28

def fn {F : FTy → Type} [FloatOps F] (main_arg0 : FVec F S100000x64 .f32) (main_arg1 : FVec F S100000x64 .f32) (main_arg2 : FVec F S2x1600000 .f32) (main_arg3 : FVec F S2x1600000 .f32) (main_arg4 : FVec F S2x64x64 .f32) (main_arg5 : FVec F S1x64 .f32) (main_arg6 : IVec S1600000 32) (main_arg7 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S2x1600000 .f32 := Host.absf main_arg2
  let main_cst_2 : FVec F S_ .f32 := constant S_ .f32 0x7F800000#32
  let main_v10 : FVec F S2x1600000 .f32 := broadcastInDim S2x1600000 ![] bcast_S_S2x1600000 main_cst_2
  let main_v11 : IVec S2x1600000 1 := cmpf .olt main_v9 main_v10
  let main_c_3 : IVec S_ 1 := constantI S_ 1 1#1
  let main_v12 : IVec S_ 1 := (fun x v => Host.reduce IntOp.andi x v reducesTo_S2x1600000_S_d0_1 h_S_) main_v11 main_c_3
  let main_v13 : IVec S_ 1 := andi main_v8 main_v12
  let main_v14 : FVec F S2x1600000 .f32 := Host.absf main_arg3
  let main_cst_4 : FVec F S_ .f32 := constant S_ .f32 0x7F800000#32
  let main_v15 : FVec F S2x1600000 .f32 := broadcastInDim S2x1600000 ![] bcast_S_S2x1600000 main_cst_4
  let main_v16 : IVec S2x1600000 1 := cmpf .olt main_v14 main_v15
  fn_part1 (F := F) main_arg4 main_arg5 main_v13 main_v16
-- ==== Kernel.lean ====
abbrev S100000x64 : Shape := ⟨2, ![100000, 64]⟩
abbrev S2x1600000 : Shape := ⟨2, ![2, 1600000]⟩
abbrev S2x64x64 : Shape := ⟨3, ![2, 64, 64]⟩
abbrev S1x64 : Shape := ⟨2, ![1, 64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x2 : Shape := ⟨2, ![1600000, 2]⟩
abbrev S1600000x4 : Shape := ⟨2, ![1600000, 4]⟩
abbrev S6400x64 : Shape := ⟨2, ![6400, 64]⟩
abbrev S6400x4 : Shape := ⟨2, ![6400, 4]⟩
abbrev S6400x1 : Shape := ⟨2, ![6400, 1]⟩
abbrev S1x64x64 : Shape := ⟨3, ![1, 64, 64]⟩
abbrev S64x64 : Shape := ⟨2, ![64, 64]⟩

abbrev nBuf : Space → Nat
  | .hbm => 45
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x1600000, .f32⟩
  | .hbm, ⟨3, _⟩ => ⟨S2x1600000, .f32⟩
  | .hbm, ⟨4, _⟩ => ⟨S2x64x64, .f32⟩
  | .hbm, ⟨5, _⟩ => ⟨S1x64, .f32⟩
  | .hbm, ⟨6, _⟩ => ⟨S1600000, .i32⟩
  | .hbm, ⟨7, _⟩ => ⟨S1600000, .i32⟩
  | .hbm, ⟨8, _⟩ => ⟨S100000x64, .bf16⟩
  | .hbm, ⟨9, _⟩ => ⟨S100000x64, .bf16⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .bf16⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .bf16⟩
  | .hbm, ⟨28, _⟩ => ⟨S1600000x2, .f32⟩
  | .hbm, ⟨29, _⟩ => ⟨S1600000x2, .f32⟩
  | .hbm, ⟨30, _⟩ => ⟨S1600000x4, .f32⟩
  | .hbm, ⟨31, _⟩ => ⟨S1600000x64, .f32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S100000x64, .f32⟩
  | .hbm, ⟨44, _⟩ => ⟨S100000x64, .f32⟩
  | .local _ .vmem, ⟨0, _⟩ => ⟨S6400x64, .bf16⟩
  | .local _ .vmem, ⟨1, _⟩ => ⟨S6400x64, .bf16⟩
  | .local _ .vmem, ⟨2, _⟩ => ⟨S6400x64, .bf16⟩
  | .local _ .vmem, ⟨3, _⟩ => ⟨S6400x64, .bf16⟩
  | .local _ .vmem, ⟨4, _⟩ => ⟨S6400x4, .f32⟩
  | .local _ .vmem, ⟨5, _⟩ => ⟨S6400x4, .f32⟩
  | .local _ .vmem, ⟨6, _⟩ => ⟨S2x64x64, .f32⟩
  | .local _ .vmem, ⟨7, _⟩ => ⟨S6400x64, .f32⟩
  | .local _ .vmem, ⟨8, _⟩ => ⟨S6400x64, .f32⟩
  | .local _ .vmem, ⟨9, _⟩ => ⟨S6400x64, .f32⟩
  | .local _ .vmem, ⟨10, _⟩ => ⟨S6400x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6400x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6400x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S2x1600000_S1600000x2_1_0 : S2x1600000.Transposes [1, 0] S1600000x2
  concatenates_S1600000x2_S1600000x2_S1600000x4_d1 : Shape.Concatenates [S1600000x2, S1600000x2] S1600000x4 1
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S6400x4_S6400x1_0_0 : ∀ a, (![0, 0] : Fin 2 → Nat) a + S6400x1.size a ≤ S6400x4.size a
  h_S6400x1 : 0 < S6400x1.numel
  shapeCasts_S6400x1_S6400x1 : S6400x1.ShapeCasts S6400x1
  inb_S6400x4_S6400x1_0_2 : ∀ a, (![0, 2] : Fin 2 → Nat) a + S6400x1.size a ≤ S6400x4.size a
  broadcasts_S6400x1_S6400x64 : S6400x1.Broadcasts S6400x64
  inb_S2x64x64_S1x64x64_0_0_0 : ∀ a, (![0, 0, 0] : Fin 3 → Nat) a + S1x64x64.size a ≤ S2x64x64.size a
  h_S1x64x64 : 0 < S1x64x64.numel
  shapeCasts_S1x64x64_S64x64 : S1x64x64.ShapeCasts S64x64
  inb_S6400x4_S6400x1_0_1 : ∀ a, (![0, 1] : Fin 2 → Nat) a + S6400x1.size a ≤ S6400x4.size a
  inb_S6400x4_S6400x1_0_3 : ∀ a, (![0, 3] : Fin 2 → Nat) a + S6400x1.size a ≤ S6400x4.size a
  inb_S2x64x64_S1x64x64_1_0_0 : ∀ a, (![1, 0, 0] : Fin 3 → Nat) a + S1x64x64.size a ≤ S2x64x64.size a
  bcast_S_S100000x64 : S_.BroadcastsInDim S100000x64 (![] : Fin 0 → Fin S100000x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  dot_S6400x64_S64x64_S6400x64_1_0_0_1_n_n_wf : DotDims.WF S6400x64 S64x64 S6400x64 [1] [0] [0] [1] [] []
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S1600000x64.size a
  hwx0_0 : ∀ i : grid0.Coords, EltTy.bits .bf16 = 32 ∨ (Rect.block (s := S1600000x64) S6400x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S1600000x64.size a
  hwx0_1 : ∀ i : grid0.Coords, EltTy.bits .bf16 = 32 ∨ (Rect.block (s := S1600000x64) S6400x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x4.size a ≤ S1600000x4.size a
  hwx0_2 : ∀ i : grid0.Coords, EltTy.bits .f32 = 32 ∨ (Rect.block (s := S1600000x4) S6400x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x64x64.size a ≤ S2x64x64.size a
  hwx0_3 : ∀ i : grid0.Coords, EltTy.bits .f32 = 32 ∨ (Rect.block (s := S2x64x64) S2x64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6400x64.size a ≤ S1600000x64.size a
  hwx0_4 : ∀ i : grid0.Coords, EltTy.bits .f32 = 32 ∨ (Rect.block (s := S1600000x64) S6400x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x64.size a ≤ S1600000x64.size a
  hwx0_5 : ∀ i : grid0.Coords, EltTy.bits .f32 = 32 ∨ (Rect.block (s := S1600000x64) S6400x64.size (cc0_transform_5 i) (hinb0_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v8) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S6400x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S2x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19_0) S6400x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19_1) S6400x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S2x64x64 : Shape := ⟨3, ![2, 64, 64]⟩
abbrev S1x64 : Shape := ⟨2, ![1, 64]⟩
abbrev S1600000 : Shape := ⟨1, ![1600000]⟩
abbrev S2x1600000x1 : Shape := ⟨3, ![2, 1600000, 1]⟩
abbrev S_ : Shape := ⟨0, ![]⟩
abbrev S1600000x1 : Shape := ⟨2, ![1600000, 1]⟩
abbrev S1600000x64 : Shape := ⟨2, ![1600000, 64]⟩
abbrev S1x1600000x64 : Shape := ⟨3, ![1, 1600000, 64]⟩
abbrev S2x1600000x64 : Shape := ⟨3, ![2, 1600000, 64]⟩
abbrev S2x100000x64 : Shape := ⟨3, ![2, 100000, 64]⟩

abbrev nBuf : Space → Nat
  | .hbm => 96
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x1600000, .f32⟩
  | .hbm, ⟨3, _⟩ => ⟨S2x1600000, .f32⟩
  | .hbm, ⟨4, _⟩ => ⟨S2x64x64, .f32⟩
  | .hbm, ⟨5, _⟩ => ⟨S1x64, .f32⟩
  | .hbm, ⟨6, _⟩ => ⟨S1600000, .i32⟩
  | .hbm, ⟨7, _⟩ => ⟨S1600000, .i32⟩
  | .hbm, ⟨8, _⟩ => ⟨S2x1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1x1600000x64, .f32⟩
  | .hbm, ⟨19, _⟩ => ⟨S2x1600000x64, .f32⟩
  | .hbm, ⟨20, _⟩ => ⟨S2x1600000x64, .f32⟩
  | .hbm, ⟨21, _⟩ => ⟨S2x1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S2x100000x64, .f32⟩
  | .hbm, ⟨26, _⟩ => ⟨S2x100000x64, .f32⟩
  | .hbm, ⟨27, _⟩ => ⟨S2x1600000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S1x1600000x64, .f32⟩
  | .hbm, ⟨38, _⟩ => ⟨S2x1600000x64, .f32⟩
  | .hbm, ⟨39, _⟩ => ⟨S2x1600000x64, .f32⟩
  | .hbm, ⟨40, _⟩ => ⟨S2x1600000x64, .f32⟩
  | .hbm, ⟨41, _⟩ => ⟨S_, .f32⟩
  | .hbm, ⟨42, _⟩ => ⟨S100000x64, .f32⟩
  | .hbm, ⟨43, _⟩ => ⟨S1600000x1, .i32⟩
  | .hbm, ⟨44, _⟩ => ⟨S2x100000x64, .f32⟩
  | .hbm, ⟨45, _⟩ => ⟨S2x100000x64, .f32⟩
  | .hbm, ⟨46, _⟩ => ⟨S2x100000x64, .f32⟩
  | .hbm, ⟨47, _⟩ => ⟨S2x100000x64, .f32⟩
  | .hbm, ⟨48, _⟩ => ⟨S2x1600000x1, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S1x1600000x64, .f32⟩
  | .hbm, ⟨59, _⟩ => ⟨S2x1600000x64, .f32⟩
  | .hbm, ⟨60, _⟩ => ⟨S2x1600000x64, .f32⟩
  | .hbm, ⟨61, _⟩ => ⟨S2x1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S2x100000x64, .f32⟩
  | .hbm, ⟨66, _⟩ => ⟨S2x100000x64, .f32⟩
  | .hbm, ⟨67, _⟩ => ⟨S2x1600000x1, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x64, .f32⟩
  | .hbm, ⟨77, _⟩ => ⟨S1x1600000x64, .f32⟩
  | .hbm, ⟨78, _⟩ => ⟨S2x1600000x64, .f32⟩
  | .hbm, ⟨79, _⟩ => ⟨S2x1600000x64, .f32⟩
  | .hbm, ⟨80, _⟩ => ⟨S2x1600000x64, .f32⟩
  | .hbm, ⟨81, _⟩ => ⟨S_, .f32⟩
  | .hbm, ⟨82, _⟩ => ⟨S100000x64, .f32⟩
  | .hbm, ⟨83, _⟩ => ⟨S1600000x1, .i32⟩
  | .hbm, ⟨84, _⟩ => ⟨S2x100000x64, .f32⟩
  | .hbm, ⟨85, _⟩ => ⟨S2x100000x64, .f32⟩
  | .hbm, ⟨86, _⟩ => ⟨S2x100000x64, .f32⟩
  | .hbm, ⟨87, _⟩ => ⟨S2x100000x64, .f32⟩
  | .hbm, ⟨88, _⟩ => ⟨S_, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S100000x64, .f32⟩
  | .hbm, ⟨94, _⟩ => ⟨S100000x64, .f32⟩
  | .hbm, ⟨95, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_c_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_7 : Ref sig .tc := ⟨.hbm, 68, rfl⟩
abbrev main_v51 : Ref sig .tc := ⟨.hbm, 69, rfl⟩
abbrev main_v52 : Ref sig .tc := ⟨.hbm, 70, rfl⟩
abbrev main_c_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_9 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_10 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_11 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩

abbrev nD : Nat := 1
abbrev τ : Topo := Topo.v7x

variable {F : FTy → Type} [FloatOps F]

class Facts₀ : Prop where
  bcast_S2x1600000_S2x1600000x1_0_1 : S2x1600000.BroadcastsInDim S2x1600000x1 (![0, 1] : Fin 2 → Fin S2x1600000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x64_S1x1600000x64_1_2 : S1600000x64.BroadcastsInDim S1x1600000x64 (![1, 2] : Fin 2 → Fin S1x1600000x64.rank)
  bcast_S2x1600000x1_S2x1600000x64_0_1_2 : S2x1600000x1.BroadcastsInDim S2x1600000x64 (![0, 1, 2] : Fin 3 → Fin S2x1600000x64.rank)
  bcast_S1x1600000x64_S2x1600000x64_0_1_2 : S1x1600000x64.BroadcastsInDim S2x1600000x64 (![0, 1, 2] : Fin 3 → Fin S2x1600000x64.rank)
  bcast_S_S100000x64 : S_.BroadcastsInDim S100000x64 (![] : Fin 0 → Fin S100000x64.rank)
  bcast_S100000x64_S2x100000x64_1_2 : S100000x64.BroadcastsInDim S2x100000x64 (![1, 2] : Fin 2 → Fin S2x100000x64.rank)
  reducesTo_S2x100000x64_S100000x64_d0 : S2x100000x64.ReducesTo [0] S100000x64
  h_S_ : 0 < S_.numel
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S2x100000x64_S1600000x1_S2x1600000x64_02_1_1_1_wf : ScatterDims.WF S2x100000x64 S1600000x1 S2x1600000x64 [0, 2] [1] [1] 1
  dot_S2x100000x64_S2x64x64_S2x100000x64_2_1_1_2_0_0_wf : DotDims.WF S2x100000x64 S2x64x64 S2x100000x64 [2] [1] [1] [2] [0] [0]

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S2x100000x64_S1600000x1_S2x1600000x64_02_1_1_1 : ScatterDims S2x100000x64 S1600000x1 S2x1600000x64 where
  updateWindowDims := [0, 2]
  insertedWindowDims := [1]
  scatterDimsToOperandDims := [1]
  indexVectorDim := 1
  wf := scatter_S2x100000x64_S1600000x1_S2x1600000x64_02_1_1_1_wf
def dot_S2x100000x64_S2x64x64_S2x100000x64_2_1_1_2_0_0 : DotDims S2x100000x64 S2x64x64 S2x100000x64 where
  lhsContracting := [2]
  rhsContracting := [1]
  lhsNonContracting := [1]
  rhsNonContracting := [2]
  lhsBatch := [0]
  rhsBatch := [0]
  wf := dot_S2x100000x64_S2x64x64_S2x100000x64_2_1_1_2_0_0_wf

class Facts : Prop extends Facts₀ where

variable [Facts]
-- ==== Proof.Spec.lean ====
/-
  What both programs compute, as two closed forms over the extended reals.

  A graph with 100000 nodes and 1600000 edges; edge `e` goes from node `col e` to node `row e`.  `XR`, `XI`
  are the real and imaginary feature rows ALREADY GATHERED per edge (row `e` is the source node's 64 features),
  `Lr`, `Li` the two (k = 0, 1) real and imaginary edge weights, `W` the two 64×64 channel mixers, `B` the bias row.
  An edge contributes to result row `n` exactly when its row index, read as a signed integer, is `n`.

  * the "edge-first" form mixes channels per edge and then sums the edges of a row:
      Σ_{e → n} Σ_k Σ_c (Lr k e · XR e c − Li k e · XI e c) · W k c o
  * the "node-first" form sums the edges of a row per k and channel and then mixes channels:
      Σ_k Σ_c ((Σ_{e → n} Lr k e · XR e c) − (Σ_{e → n} Li k e · XI e c)) · W k c o
  They agree when every entry is a real number (distributivity fails at infinities): Algebra.lean.
-/
import Idealize.ShloMosaic.PureOps.Ideal
import Idealize.ShloMosaic.Lib.ValueIdx

noncomputable section

namespace Cert.Spec

open Idealize.ShloMosaic Idealize.ShloMosaic.ValueIdx

/-- per-edge gathered feature rows, `[1600000, 64]` -/
abbrev SE : Shape := ⟨2, ![1600000, 64]⟩
/-- edge weights, `[2, 1600000]` -/
abbrev SL : Shape := ⟨2, ![2, 1600000]⟩
/-- channel mixers, `[2, 64, 64]` -/
abbrev SW : Shape := ⟨3, ![2, 64, 64]⟩
/-- bias row, `[1, 64]` -/
abbrev SB : Shape := ⟨2, ![1, 64]⟩
/-- edge row indices, `[1600000]` -/
abbrev SI : Shape := ⟨1, ![1600000]⟩
/-- results, `[100000, 64]` -/
abbrev SN : Shape := ⟨2, ![100000, 64]⟩

/-- Edge `e` lands on result row `n`: its row index, read signed, is `n`. -/
abbrev lands (row : IVec SI 32) (e : Fin 1600000) (n : Fin 100000) : Prop := (row (ix1 e)).toInt = (n.val : Int)

variable (XR XI : SE.Idx → EReal) (Lr Li : SL.Idx → EReal) (W : SW.Idx → EReal) (B : SB.Idx → EReal) (row : IVec SI 32)

/-- Real part, edge-first. -/
def edgeFirstRe (n : Fin 100000) (o : Fin 64) : EReal :=
  (∑ e : Fin 1600000, if lands row e n then
      (∑ c : Fin 64, (Lr (ix2 0 e) * XR (ix2 e c) - Li (ix2 0 e) * XI (ix2 e c)) * W (ix3 0 c o))
      + ∑ c : Fin 64, (Lr (ix2 1 e) * XR (ix2 e c) - Li (ix2 1 e) * XI (ix2 e c)) * W (ix3 1 c o)
    else 0) + B (ix2 0 o)

/-- Imaginary part, edge-first. -/
def edgeFirstIm (n : Fin 100000) (o : Fin 64) : EReal :=
  (∑ e : Fin 1600000, if lands row e n then
      (∑ c : Fin 64, (Li (ix2 0 e) * XR (ix2 e c) + Lr (ix2 0 e) * XI (ix2 e c)) * W (ix3 0 c o))
      + ∑ c : Fin 64, (Li (ix2 1 e) * XR (ix2 e c) + Lr (ix2 1 e) * XI (ix2 e c)) * W (ix3 1 c o)
    else 0) + B (ix2 0 o)

/-- Real part, node-first. -/
def nodeFirstRe (n : Fin 100000) (o : Fin 64) : EReal :=
  (∑ k : Fin 2, ∑ c : Fin 64,
      ((∑ e : Fin 1600000, if lands row e n then Lr (ix2 k e) * XR (ix2 e c) else 0)
        - ∑ e : Fin 1600000, if lands row e n then Li (ix2 k e) * XI (ix2 e c) else 0) * W (ix3 k c o))
    + B (ix2 0 o)

/-- Imaginary part, node-first. -/
def nodeFirstIm (n : Fin 100000) (o : Fin 64) : EReal :=
  (∑ k : Fin 2, ∑ c : Fin 64,
      ((∑ e : Fin 1600000, if lands row e n then Li (ix2 k e) * XR (ix2 e c) else 0)
        + ∑ e : Fin 1600000, if lands row e n then Lr (ix2 k e) * XI (ix2 e c) else 0) * W (ix3 k c o))
    + B (ix2 0 o)

end Cert.Spec

end
-- ==== Proof.Algebra.lean ====
/-
  The edge-first and node-first forms agree when every entry is a real number.

  Over the reals: a finite sum of differences is the difference of the sums, a product with a fixed factor moves
  inside a finite sum, and finite sums commute.  So
      Σ_k Σ_c ((Σ_{e→n} a k e · xr e c) − (Σ_{e→n} b k e · xi e c)) · w k c
    = Σ_{e→n} Σ_k Σ_c (a k e · xr e c − b k e · xi e c) · w k c,
  and the sum over k : Fin 2 is its two terms.  On the extended reals these laws fail at infinities, so every entry is
  first written as the coercion of a real and the coercion is pushed outwards.  The bias is the same last summand on
  both sides and may be any extended real.
-/
import proofs.«179885_j9560597201099_1_alg».proof.Proof.Spec

noncomputable section

namespace Cert.Spec

open Idealize.ShloMosaic Idealize.ShloMosaic.ValueIdx

/-- The coercion ℝ → EReal of a finite sum is the sum of the coercions (the coercion is additive). -/
private theorem coe_finset_sum {ι : Type*} (s : Finset ι) (f : ι → ℝ) :
    ((∑ i ∈ s, f i : ℝ) : EReal) = ∑ i ∈ s, ((f i : ℝ) : EReal) := by
  classical
  refine Finset.induction_on s ?_ ?_
  · simp
  · intro i s hi ih
    rw [Finset.sum_insert hi, Finset.sum_insert hi, EReal.coe_add, ih]

/-- The coercion of a guarded real (zero when the guard fails) is the guarded coercion. -/
private theorem coe_ite_zero (p : Prop) [Decidable p] (x : ℝ) :
    ((if p then x else 0 : ℝ) : EReal) = if p then (x : EReal) else 0 := by
  split_ifs
  · rfl
  · exact EReal.coe_zero

/-- One value of k, difference form, over the reals and a finite set `s` of edges:
    Σ_{e∈s} Σ_c (a e · xr e c − b e · xi e c) · w c = Σ_c ((Σ_{e∈s} a e · xr e c) − Σ_{e∈s} b e · xi e c) · w c. -/
private theorem real_one_sub {ι : Type*} (s : Finset ι) (a b : ι → ℝ) (xr xi : ι → Fin 64 → ℝ) (w : Fin 64 → ℝ) :
    ∑ e ∈ s, ∑ c, (a e * xr e c - b e * xi e c) * w c
      = ∑ c, ((∑ e ∈ s, a e * xr e c) - ∑ e ∈ s, b e * xi e c) * w c := by
  rw [Finset.sum_comm]
  refine Finset.sum_congr rfl fun c _ => ?_
  rw [← Finset.sum_sub_distrib, Finset.sum_mul]

/-- One value of k, sum form. -/
private theorem real_one_add {ι : Type*} (s : Finset ι) (a b : ι → ℝ) (xr xi : ι → Fin 64 → ℝ) (w : Fin 64 → ℝ) :
    ∑ e ∈ s, ∑ c, (a e * xr e c + b e * xi e c) * w c
      = ∑ c, ((∑ e ∈ s, a e * xr e c) + ∑ e ∈ s, b e * xi e c) * w c := by
  rw [Finset.sum_comm]
  refine Finset.sum_congr rfl fun c _ => ?_
  rw [← Finset.sum_add_distrib, Finset.sum_mul]

/-- The difference form over the reals, the edges of a row selected by a decidable predicate `p`. -/
private theorem real_sub {ι : Type*} [Fintype ι] (p : ι → Prop) [DecidablePred p]
    (a b : Fin 2 → ι → ℝ) (xr xi : ι → Fin 64 → ℝ) (w : Fin 2 → Fin 64 → ℝ) :
    (∑ e, if p e then
        (∑ c, (a 0 e * xr e c - b 0 e * xi e c) * w 0 c)
          + ∑ c, (a 1 e * xr e c - b 1 e * xi e c) * w 1 c
      else 0)
    = ∑ k : Fin 2, ∑ c,
        ((∑ e, if p e then a k e * xr e c else 0) - ∑ e, if p e then b k e * xi e c else 0) * w k c := by
  simp only [← Finset.sum_filter]
  rw [Fin.sum_univ_two, Finset.sum_add_distrib, real_one_sub, real_one_sub]

/-- The sum form over the reals. -/
private theorem real_add {ι : Type*} [Fintype ι] (p : ι → Prop) [DecidablePred p]
    (a b : Fin 2 → ι → ℝ) (xr xi : ι → Fin 64 → ℝ) (w : Fin 2 → Fin 64 → ℝ) :
    (∑ e, if p e then
        (∑ c, (a 0 e * xr e c + b 0 e * xi e c) * w 0 c)
          + ∑ c, (a 1 e * xr e c + b 1 e * xi e c) * w 1 c
      else 0)
    = ∑ k : Fin 2, ∑ c,
        ((∑ e, if p e then a k e * xr e c else 0) + ∑ e, if p e then b k e * xi e c else 0) * w k c := by
  simp only [← Finset.sum_filter]
  rw [Fin.sum_univ_two, Finset.sum_add_distrib, real_one_add, real_one_add]

/-- The difference form on the extended reals, every entry the coercion of a real. -/
private theorem ereal_sub {ι : Type*} [Fintype ι] (p : ι → Prop) [DecidablePred p]
    (a b : Fin 2 → ι → ℝ) (xr xi : ι → Fin 64 → ℝ) (w : Fin 2 → Fin 64 → ℝ) :
    (∑ e, if p e then
        (∑ c, ((a 0 e : EReal) * (xr e c : EReal) - (b 0 e : EReal) * (xi e c : EReal)) * (w 0 c : EReal))
          + ∑ c, ((a 1 e : EReal) * (xr e c : EReal) - (b 1 e : EReal) * (xi e c : EReal)) * (w 1 c : EReal)
      else 0)
    = ∑ k : Fin 2, ∑ c,
        ((∑ e, if p e then (a k e : EReal) * (xr e c : EReal) else 0)
          - ∑ e, if p e then (b k e : EReal) * (xi e c : EReal) else 0) * (w k c : EReal) := by
  have h := congrArg (fun r : ℝ => (r : EReal)) (real_sub p a b xr xi w)
  simp only [coe_finset_sum, coe_ite_zero, EReal.coe_add, EReal.coe_mul, EReal.coe_sub] at h
  exact h

/-- The sum form on the extended reals, every entry the coercion of a real. -/
private theorem ereal_add {ι : Type*} [Fintype ι] (p : ι → Prop) [DecidablePred p]
    (a b : Fin 2 → ι → ℝ) (xr xi : ι → Fin 64 → ℝ) (w : Fin 2 → Fin 64 → ℝ) :
    (∑ e, if p e then
        (∑ c, ((a 0 e : EReal) * (xr e c : EReal) + (b 0 e : EReal) * (xi e c : EReal)) * (w 0 c : EReal))
          + ∑ c, ((a 1 e : EReal) * (xr e c : EReal) + (b 1 e : EReal) * (xi e c : EReal)) * (w 1 c : EReal)
      else 0)
    = ∑ k : Fin 2, ∑ c,
        ((∑ e, if p e then (a k e : EReal) * (xr e c : EReal) else 0)
          + ∑ e, if p e then (b k e : EReal) * (xi e c : EReal) else 0) * (w k c : EReal) := by
  have h := congrArg (fun r : ℝ => (r : EReal)) (real_add p a b xr xi w)
  simp only [coe_finset_sum, coe_ite_zero, EReal.coe_add, EReal.coe_mul] at h
  exact h

variable (XR XI : SE.Idx → EReal) (Lr Li : SL.Idx → EReal) (W : SW.Idx → EReal) (B : SB.Idx → EReal) (row : IVec SI 32)

theorem edgeFirstRe_eq_nodeFirstRe
    (hXR : ∀ j, ∃ r : ℝ, XR j = (r : EReal)) (hXI : ∀ j, ∃ r : ℝ, XI j = (r : EReal))
    (hLr : ∀ j, ∃ r : ℝ, Lr j = (r : EReal)) (hLi : ∀ j, ∃ r : ℝ, Li j = (r : EReal))
    (hW : ∀ j, ∃ r : ℝ, W j = (r : EReal)) (n : Fin 100000) (o : Fin 64) :
    edgeFirstRe XR XI Lr Li W B row n o = nodeFirstRe XR XI Lr Li W B row n o := by
  choose xr hxr using hXR
  choose xi hxi using hXI
  choose lr hlr using hLr
  choose li hli using hLi
  choose w hw using hW
  unfold edgeFirstRe nodeFirstRe
  simp only [hxr, hxi, hlr, hli, hw]
  exact congrArg (· + B (ix2 0 o))
    (ereal_sub (fun e => lands row e n) (fun k e => lr (ix2 k e)) (fun k e => li (ix2 k e))
      (fun e c => xr (ix2 e c)) (fun e c => xi (ix2 e c)) (fun k c => w (ix3 k c o)))

theorem edgeFirstIm_eq_nodeFirstIm
    (hXR : ∀ j, ∃ r : ℝ, XR j = (r : EReal)) (hXI : ∀ j, ∃ r : ℝ, XI j = (r : EReal))
    (hLr : ∀ j, ∃ r : ℝ, Lr j = (r : EReal)) (hLi : ∀ j, ∃ r : ℝ, Li j = (r : EReal))
    (hW : ∀ j, ∃ r : ℝ, W j = (r : EReal)) (n : Fin 100000) (o : Fin 64) :
    edgeFirstIm XR XI Lr Li W B row n o = nodeFirstIm XR XI Lr Li W B row n o := by
  choose xr hxr using hXR
  choose xi hxi using hXI
  choose lr hlr using hLr
  choose li hli using hLi
  choose w hw using hW
  unfold edgeFirstIm nodeFirstIm
  simp only [hxr, hxi, hlr, hli, hw]
  exact congrArg (· + B (ix2 0 o))
    (ereal_add (fun e => lands row e n) (fun k e => li (ix2 k e)) (fun k e => lr (ix2 k e))
      (fun e c => xr (ix2 e c)) (fun e c => xi (ix2 e c)) (fun k c => w (ix3 k c o)))

end Cert.Spec

end
-- ==== Proof.Finite.lean ====
/-
  The precondition read: every float input entry is a real number.

  The precondition is the conjunction, over the six float inputs, of "every entry has absolute value below +∞".
  An extended real whose absolute value is below +∞ is neither +∞ nor −∞, hence the coercion of a real.
  (The bias is finite too, but nothing downstream needs it: it is the same last summand on both sides.)
-/
import proofs.«179885_j9560597201099_1_alg».proof.Pre_finite_inputs
import proofs.«179885_j9560597201099_1_alg».proof.Proof.Gen.Pre_finite_inputs
import Idealize.ShloMosaic.PureOps.Ideal
import Idealize.ShloMosaic.Lib.ValueIdx
import Idealize.ShloMosaic.Lib.ReduceAll

noncomputable section

namespace Cert.Finite

open Idealize.ShloMosaic Idealize.ShloMosaic.ValueIdx Cert.Pre_finite_inputs

/-- The 32-bit pattern `0x7F800000` (exponent all ones, significand zero, sign clear) denotes `+∞`. -/
private theorem ofBits_inf : Ideal.ofBits .f32 0x7F800000#32 = (⊤ : EReal) := by
  simp [Ideal.ofBits, Ideal.ieee]

/-- On one value: if `|x| < +∞` holds (the comparison word is 1), then `x` is a real number.
    `|x|` is `max x (−x)`; at `x = +∞` it is `+∞`, at `x = −∞` it is `−(−∞) = +∞`, and `+∞ < +∞` is false. -/
private theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  have h' : Ideal.cmp .olt (max x (-x)) (Ideal.ofBits .f32 0x7F800000#32) = 1#1 := h
  rw [ofBits_inf] at h'
  unfold Ideal.cmp at h'
  induction x using EReal.rec with
  | bot => simp at h'
  | coe r => exact ⟨r, rfl⟩
  | top => simp at h'

/-- On one array: if `jnp.all(|x| < +∞)` is 1, every entry of `x` is a real number. -/
private theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (h : Host.reduce IntOp.andi
          (cmpf .olt (Host.absf x) (broadcastInDim s ![] hb (constant (F := Ideal) S_ .f32 0x7F800000#32))) init hr hu ix0
          = 1#1) :
    ∀ i, ∃ r : ℝ, x i = (r : EReal) := by
  intro i
  -- the result of a reduction over all axes has rank 0: one index
  haveI : Subsingleton S_.Idx := ⟨fun a b => funext fun d => d.elim0⟩
  have e := Host.reduce_andi_all _ init hr hu ix0 h i
  exact real_of_abs_lt_inf (x i) e

/-- If the printed precondition evaluates to all ones at `Ideal`, every entry of the node features, the edge weights
    and the channel mixers is a real number. -/
theorem real_of_pre (x0 x1 : FVec Ideal S100000x64 .f32) (x2 x3 : FVec Ideal S2x1600000 .f32)
    (x4 : FVec Ideal S2x64x64 .f32) (x5 : FVec Ideal S1x64 .f32) (x6 x7 : IVec S1600000 32)
    (h : Cert.Pre_finite_inputs.fn (F := Ideal) x0 x1 x2 x3 x4 x5 x6 x7 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have h0 := congrFun h ix0
  dsimp only [Cert.Pre_finite_inputs.fn, Cert.Pre_finite_inputs.fn_part1] at h0
  -- the result is ((((a0 ∧ a1) ∧ a2) ∧ a3) ∧ a4) ∧ a5, each `a` one array's `jnp.all`
  obtain ⟨h01234, _⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨real_of_all x0 _ _ _ _ h0', real_of_all x1 _ _ _ _ h1, real_of_all x2 _ _ _ _ h2,
    real_of_all x3 _ _ _ _ h3, real_of_all x4 _ _ _ _ h4⟩

end Cert.Finite

end
-- ==== Proof.LibScatterRows.lean ====
/-
  A float scatter-add along the node axis, read at one result element, over the extended reals.

  `jax.ops.segment_sum(data, ids, num_segments = N)` lowers to a `stablehlo.scatter` with an `add` body whose scatter
  indices are the segment ids as an `[E, 1]` array.  At the ideal instance its value at a result element is the
  operand's element plus the exact sum of the updates that land there (an update whose index, read signed, is outside
  the operand is dropped).  Two layouts occur:
  * plain rows: operand `[N, C]`, updates `[E, C]`; update `(e, o)` lands on `(idx e, o)`;
  * rows under a leading batch axis: operand `[K, N, C]`, updates `[K, E, C]`; update `(k, e, o)` lands on `(k, idx e, o)`.
  In both the sum over the landing updates is a sum over the edges `e` alone, with the test `idx e = n`.
-/
import Idealize.ShloMosaic.PureOps.Ideal
import Idealize.ShloMosaic.PureOps.Contract
import Idealize.ShloMosaic.Lib.ValueIdx

noncomputable section

namespace Idealize.ShloMosaic.ScatterRows

open Idealize.ShloMosaic Idealize.ShloMosaic.ValueIdx

/-- The scatter dimension numbers of a row scatter-add: operand `[N, C]`, scatter indices `[E, 1]`, updates `[E, C]`,
    `update_window_dims = [1]`, `inserted_window_dims = [0]`, `scatter_dims_to_operand_dims = [0]`, `index_vector_dim = 1`. -/
abbrev rowsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The same under a leading batch axis: operand `[K, N, C]`, scatter indices `[E, 1]`, updates `[K, E, C]`,
    `update_window_dims = [0, 2]`, `inserted_window_dims = [1]`, `scatter_dims_to_operand_dims = [1]`, `index_vector_dim = 1`. -/
abbrev batchedRowsDims (K N E C : Nat)
    (wf : ScatterDims.WF ⟨3, ![K, N, C]⟩ ⟨2, ![E, 1]⟩ ⟨3, ![K, E, C]⟩ [0, 2] [1] [1] 1) :
    ScatterDims ⟨3, ![K, N, C]⟩ ⟨2, ![E, 1]⟩ ⟨3, ![K, E, C]⟩ where
  updateWindowDims := [0, 2]
  insertedWindowDims := [1]
  scatterDimsToOperandDims := [1]
  indexVectorDim := 1
  wf := wf

/-! ## An update lands on a result index exactly when start plus window coordinate is that index on every axis -/

/-- The landing index of update `j` is `i` exactly when, on every operand axis, the signed start plus the window
    coordinate is `i`'s coordinate (in range or not: out of range nothing is landed on, and no coordinate of `i` is
    out of range). -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro heq a
      have hi := Option.some.inj heq
      have := congrArg (fun f => ((f a).val : Int)) hi
      simp only at this
      rw [← this]
      exact (Int.toNat_of_nonneg (h a).1).symm
    · intro hall
      congr 1
      funext a
      refine Fin.ext ?_
      show (d.start j idx a + (d.window j a : Int)).toNat = (i a).val
      rw [hall a]
      exact Int.toNat_natCast _
  · rename_i h
    constructor
    · intro heq; cases heq
    · intro hall
      exfalso
      apply h
      intro a
      rw [hall a]
      exact ⟨Int.natCast_nonneg _, by exact_mod_cast (i a).isLt⟩

/-! ## Sums over a rank-3 index set -/

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The row scatter: start and window coordinate on the two operand axes -/

section Rows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (o' : Fin C)

/-- On the node axis the start is the edge's index, read signed. -/
private theorem rows_start0 : (rowsDims N E C wf).start (ix2 e o') idx 0 = (idx (ix2 e 0)).toInt := by
  unfold ScatterDims.start
  rw [dif_pos (show (0 : Fin 2) ∈ (rowsDims N E C wf).scatterDimsToOperandDims from List.mem_singleton.mpr rfl)]
  have hsi : (rowsDims N E C wf).siIdx (ix2 e o') ⟨List.idxOf (0 : Fin 2) (rowsDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the feature axis the start is zero. -/
private theorem rows_start1 : (rowsDims N E C wf).start (ix2 e o') idx 1 = 0 := by
  unfold ScatterDims.start
  rw [dif_neg (show (1 : Fin 2) ∉ ([0] : List (Fin 2)) by decide)]

/-- The node axis is inserted: no window coordinate. -/
private theorem rows_window0 : (rowsDims N E C wf).window (ix2 e o') 0 = 0 := by
  unfold ScatterDims.window
  split
  · rename_i ha
    have hk : (rowsDims N E C wf).sKept = [1] := rfl
    rw [hk] at ha
    exact absurd (List.mem_singleton.mp ha) (show (0 : Fin 2) ≠ 1 by decide)
  · rfl

/-- On the feature axis the window coordinate is the update's feature coordinate. -/
private theorem rows_window1 : (rowsDims N E C wf).window (ix2 e o') 1 = o'.val := by
  unfold ScatterDims.window
  split
  · rfl
  · rename_i ha
    have hk : (rowsDims N E C wf).sKept = [1] := rfl
    rw [hk] at ha
    exact absurd (List.mem_singleton.mpr rfl) ha

/-- Update `(e, o')` lands on `(n, o)` exactly when the edge's index is `n` and the feature coordinates agree. -/
private theorem rows_resultIdx?_iff (n : Fin N) (o : Fin C) :
    (rowsDims N E C wf).resultIdx? (ix2 e o') idx = some (ix2 n o)
      ↔ (idx (ix2 e 0)).toInt = (n.val : Int) ∧ o' = o := by
  rw [resultIdx?_eq_some_iff, Fin.forall_fin_two, rows_start0, rows_start1, rows_window0, rows_window1]
  show (idx (ix2 e 0)).toInt + ((0 : Nat) : Int) = (n.val : Int) ∧ (0 : Int) + (o'.val : Int) = (o.val : Int) ↔ _
  constructor
  · rintro ⟨h0, h1⟩
    exact ⟨by omega, Fin.ext (by omega)⟩
  · rintro ⟨h0, rfl⟩
    exact ⟨by omega, by omega⟩

end Rows

/-- THE ROW SCATTER-ADD READ AT `(n, o)`: the operand there plus the sum over the edges whose index is `n` of the
    update at `(e, o)`. -/
theorem scatterAdd_rows_apply {N E C : Nat}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ 32) (upd : FVec Ideal ⟨2, ![E, C]⟩ .f32)
    (n : Fin N) (o : Fin C) :
    Host.scatterAdd (F := Ideal) (rowsDims N E C wf) x idx upd (ix2 n o)
      = x (ix2 n o) + ∑ e : Fin E, if (idx (ix2 e 0)).toInt = (n.val : Int) then upd (ix2 e o) else 0 := by
  show Ideal.hostScatterAdd (rowsDims N E C wf) x idx upd (ix2 n o) = _
  unfold Ideal.hostScatterAdd
  congr 1
  rw [Finset.sum_filter, sum_idx2]
  refine Finset.sum_congr rfl fun e _ => ?_
  simp only [rows_resultIdx?_iff]
  by_cases hA : (idx (ix2 e 0)).toInt = (n.val : Int)
  · simp only [hA, true_and, Finset.sum_ite_eq', Finset.mem_univ, if_true]
  · simp only [hA, false_and, if_false, Finset.sum_const_zero]

/-! ## The batched row scatter: start and window coordinate on the three operand axes -/

private theorem forall_fin_three {P : Fin 3 → Prop} : (∀ a, P a) ↔ P 0 ∧ P 1 ∧ P 2 :=
  ⟨fun h => ⟨h 0, h 1, h 2⟩, fun ⟨h0, h1, h2⟩ a => match a with | ⟨0, _⟩ => h0 | ⟨1, _⟩ => h1 | ⟨2, _⟩ => h2⟩

section Batched
variable {K N E C w : Nat} (wf : ScatterDims.WF ⟨3, ![K, N, C]⟩ ⟨2, ![E, 1]⟩ ⟨3, ![K, E, C]⟩ [0, 2] [1] [1] 1)
  (idx : IVec ⟨2, ![E, 1]⟩ w) (k' : Fin K) (e : Fin E) (o' : Fin C)

/-- On the node axis the start is the edge's index, read signed. -/
private theorem batched_start1 : (batchedRowsDims K N E C wf).start (ix3 k' e o') idx 1 = (idx (ix2 e 0)).toInt := by
  unfold ScatterDims.start
  rw [dif_pos (show (1 : Fin 3) ∈ (batchedRowsDims K N E C wf).scatterDimsToOperandDims from List.mem_singleton.mpr rfl)]
  have hsi : (batchedRowsDims K N E C wf).siIdx (ix3 k' e o')
      ⟨List.idxOf (1 : Fin 3) (batchedRowsDims K N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the batch axis the start is zero. -/
private theorem batched_start0 : (batchedRowsDims K N E C wf).start (ix3 k' e o') idx 0 = 0 := by
  unfold ScatterDims.start
  rw [dif_neg (show (0 : Fin 3) ∉ ([1] : List (Fin 3)) by decide)]

/-- On the feature axis the start is zero. -/
private theorem batched_start2 : (batchedRowsDims K N E C wf).start (ix3 k' e o') idx 2 = 0 := by
  unfold ScatterDims.start
  rw [dif_neg (show (2 : Fin 3) ∉ ([1] : List (Fin 3)) by decide)]

/-- On the batch axis the window coordinate is the update's batch coordinate. -/
private theorem batched_window0 : (batchedRowsDims K N E C wf).window (ix3 k' e o') 0 = k'.val := by
  unfold ScatterDims.window
  split
  · rfl
  · rename_i ha
    have hk : (batchedRowsDims K N E C wf).sKept = [0, 2] := rfl
    rw [hk] at ha
    exact absurd (List.mem_cons.mpr (Or.inl rfl)) ha

/-- The node axis is inserted: no window coordinate. -/
private theorem batched_window1 : (batchedRowsDims K N E C wf).window (ix3 k' e o') 1 = 0 := by
  unfold ScatterDims.window
  split
  · rename_i ha
    have hk : (batchedRowsDims K N E C wf).sKept = [0, 2] := rfl
    rw [hk] at ha
    rcases List.mem_cons.mp ha with h | h
    · exact absurd h (show (1 : Fin 3) ≠ 0 by decide)
    · exact absurd (List.mem_singleton.mp h) (show (1 : Fin 3) ≠ 2 by decide)
  · rfl

/-- On the feature axis the window coordinate is the update's feature coordinate. -/
private theorem batched_window2 : (batchedRowsDims K N E C wf).window (ix3 k' e o') 2 = o'.val := by
  unfold ScatterDims.window
  split
  · rfl
  · rename_i ha
    have hk : (batchedRowsDims K N E C wf).sKept = [0, 2] := rfl
    rw [hk] at ha
    exact absurd (List.mem_cons.mpr (Or.inr (List.mem_singleton.mpr rfl))) ha

/-- Update `(k', e, o')` lands on `(k, n, o)` exactly when the batch coordinates agree, the edge's index is `n` and the
    feature coordinates agree. -/
private theorem batched_resultIdx?_iff (k : Fin K) (n : Fin N) (o : Fin C) :
    (batchedRowsDims K N E C wf).resultIdx? (ix3 k' e o') idx = some (ix3 k n o)
      ↔ k' = k ∧ (idx (ix2 e 0)).toInt = (n.val : Int) ∧ o' = o := by
  rw [resultIdx?_eq_some_iff, forall_fin_three, batched_start0, batched_start1, batched_start2, batched_window0,
    batched_window1, batched_window2]
  show (0 : Int) + (k'.val : Int) = (k.val : Int) ∧ (idx (ix2 e 0)).toInt + ((0 : Nat) : Int) = (n.val : Int)
    ∧ (0 : Int) + (o'.val : Int) = (o.val : Int) ↔ _
  constructor
  · rintro ⟨h0, h1, h2⟩
    exact ⟨Fin.ext (by omega), by omega, Fin.ext (by omega)⟩
  · rintro ⟨rfl, h1, rfl⟩
    exact ⟨by omega, by omega, by omega⟩

end Batched

/-- THE BATCHED ROW SCATTER-ADD READ AT `(k, n, o)`. -/
theorem scatterAdd_batchedRows_apply {K N E C : Nat}
    (wf : ScatterDims.WF ⟨3, ![K, N, C]⟩ ⟨2, ![E, 1]⟩ ⟨3, ![K, E, C]⟩ [0, 2] [1] [1] 1)
    (x : FVec Ideal ⟨3, ![K, N, C]⟩ .f32) (idx : IVec ⟨2, ![E, 1]⟩ 32) (upd : FVec Ideal ⟨3, ![K, E, C]⟩ .f32)
    (k : Fin K) (n : Fin N) (o : Fin C) :
    Host.scatterAdd (F := Ideal) (batchedRowsDims K N E C wf) x idx upd (ix3 k n o)
      = x (ix3 k n o) + ∑ e : Fin E, if (idx (ix2 e 0)).toInt = (n.val : Int) then upd (ix3 k e o) else 0 := by
  show Ideal.hostScatterAdd (batchedRowsDims K N E C wf) x idx upd (ix3 k n o) = _
  unfold Ideal.hostScatterAdd
  congr 1
  rw [Finset.sum_filter, sum_idx3]
  simp only [batched_resultIdx?_iff]
  rw [Finset.sum_eq_single k]
  · refine Finset.sum_congr rfl fun e _ => ?_
    by_cases hA : (idx (ix2 e 0)).toInt = (n.val : Int)
    · simp only [hA, eq_self_iff_true, true_and, Finset.sum_ite_eq', Finset.mem_univ, if_true]
    · simp only [hA, eq_self_iff_true, true_and, false_and, if_false, Finset.sum_const_zero]
  · intro b _ hb
    simp only [hb, false_and, if_false, Finset.sum_const_zero]
  · intro h
    exact absurd (Finset.mem_univ k) h

end Idealize.ShloMosaic.ScatterRows

end
-- ==== Proof.RefValue.lean ====
/-
  The reference's two results, element by element, are the node-first closed form.

  The reference gathers each edge's source features (kept here as the arrays `gatheredRe`, `gatheredIm`: what the
  gather returns, whatever the column indices are), scales them by the edge weights, sums the edges of each result row
  with a batched scatter-add from zero, subtracts (or adds) the real and imaginary sums, mixes channels by a batched
  matrix product, sums the two terms k = 0, 1 from zero and adds the bias row.
-/
import proofs.«179885_j9560597201099_1_alg».proof.Proof.Gen.ReferenceIdeal.Read
import proofs.«179885_j9560597201099_1_alg».proof.Proof.Spec
import proofs.«179885_j9560597201099_1_alg».proof.Proof.LibScatterRows
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.ValueIdx Idealize.ShloMosaic.ScatterRows

variable (x0 x1 : FVec Ideal S100000x64 .f32) (x2 x3 : FVec Ideal S2x1600000 .f32) (x4 : FVec Ideal S2x64x64 .f32)
  (x5 : FVec Ideal S1x64 .f32) (x6 x7 : IVec S1600000 32)

/-- The real features of each edge's source node, as the gather returns them. -/
abbrev gatheredRe : FVec Ideal S1600000x64 .f32 := val_main_v7 (F := Ideal) x0 x7
/-- The imaginary features of each edge's source node, as the gather returns them. -/
abbrev gatheredIm : FVec Ideal S1600000x64 .f32 := val_main_v23 (F := Ideal) x1 x7

/-- The second pair of gathers reads the same arrays at the same indices. -/
theorem gather_again_re : val_main_v41 (F := Ideal) x0 x7 = gatheredRe x0 x7 := rfl
theorem gather_again_im : val_main_v57 (F := Ideal) x1 x7 = gatheredIm x1 x7 := rfl

/-- The printed scatter record is the batched row scatter. -/
theorem scatter_eq : scatter_S2x100000x64_S1600000x1_S2x1600000x64_02_1_1_1
    = batchedRowsDims 2 100000 1600000 64 Facts₀.scatter_S2x100000x64_S1600000x1_S2x1600000x64_02_1_1_1_wf := rfl

/-! ## The per-edge products that are scattered -/

theorem scaled_v11 (k : Fin 2) (e : Fin 1600000) (c : Fin 64) :
    val_main_v11 (F := Ideal) x0 x2 x7 (ix3 k e c) = x2 (ix2 k e) * gatheredRe x0 x7 (ix2 e c) := by
  rw [val_main_v11_apply, val_main_v9_apply, val_main_v0_apply, val_main_v10_apply, val_main_v8_apply]
  have e1 : idx_main_v0 (idx_main_v9 (ix3 k e c)) = ix2 k e :=
    funext fun a => by match a with | ⟨0, _⟩ => rfl | ⟨1, _⟩ => rfl
  have e2 : idx_main_v8 (idx_main_v10 (ix3 k e c)) = ix2 e c :=
    funext fun a => by match a with | ⟨0, _⟩ => rfl | ⟨1, _⟩ => rfl
  rw [e1, e2]; rfl

theorem scaled_v27 (k : Fin 2) (e : Fin 1600000) (c : Fin 64) :
    val_main_v27 (F := Ideal) x1 x3 x7 (ix3 k e c) = x3 (ix2 k e) * gatheredIm x1 x7 (ix2 e c) := by
  rw [val_main_v27_apply, val_main_v25_apply, val_main_v16_apply, val_main_v26_apply, val_main_v24_apply]
  have e1 : idx_main_v16 (idx_main_v25 (ix3 k e c)) = ix2 k e :=
    funext fun a => by match a with | ⟨0, _⟩ => rfl | ⟨1, _⟩ => rfl
  have e2 : idx_main_v24 (idx_main_v26 (ix3 k e c)) = ix2 e c :=
    funext fun a => by match a with | ⟨0, _⟩ => rfl | ⟨1, _⟩ => rfl
  rw [e1, e2]; rfl

theorem scaled_v45 (k : Fin 2) (e : Fin 1600000) (c : Fin 64) :
    val_main_v45 (F := Ideal) x0 x3 x7 (ix3 k e c) = x3 (ix2 k e) * gatheredRe x0 x7 (ix2 e c) := by
  rw [val_main_v45_apply, val_main_v43_apply, val_main_v34_apply, val_main_v44_apply, val_main_v42_apply]
  have e1 : idx_main_v34 (idx_main_v43 (ix3 k e c)) = ix2 k e :=
    funext fun a => by match a with | ⟨0, _⟩ => rfl | ⟨1, _⟩ => rfl
  have e2 : idx_main_v42 (idx_main_v44 (ix3 k e c)) = ix2 e c :=
    funext fun a => by match a with | ⟨0, _⟩ => rfl | ⟨1, _⟩ => rfl
  rw [e1, e2]; rfl

theorem scaled_v61 (k : Fin 2) (e : Fin 1600000) (c : Fin 64) :
    val_main_v61 (F := Ideal) x1 x2 x7 (ix3 k e c) = x2 (ix2 k e) * gatheredIm x1 x7 (ix2 e c) := by
  rw [val_main_v61_apply, val_main_v59_apply, val_main_v50_apply, val_main_v60_apply, val_main_v58_apply]
  have e1 : idx_main_v50 (idx_main_v59 (ix3 k e c)) = ix2 k e :=
    funext fun a => by match a with | ⟨0, _⟩ => rfl | ⟨1, _⟩ => rfl
  have e2 : idx_main_v58 (idx_main_v60 (ix3 k e c)) = ix2 e c :=
    funext fun a => by match a with | ⟨0, _⟩ => rfl | ⟨1, _⟩ => rfl
  rw [e1, e2]; rfl

/-! ## The four row sums: a scatter-add from zero is the sum over the edges that land on the row -/

/-- The zero the scatters start from. -/
theorem zero_v14 (i : S2x100000x64.Idx) : val_main_v14 (F := Ideal) i = 0 := by
  rw [val_main_v14_apply, val_main_v12_apply, val_main_cst_apply]; exact Ideal.ofBits_zero_f32
theorem zero_v30 (i : S2x100000x64.Idx) : val_main_v30 (F := Ideal) i = 0 := by
  rw [val_main_v30_apply, val_main_v28_apply, val_main_cst_3_apply]; exact Ideal.ofBits_zero_f32
theorem zero_v48 (i : S2x100000x64.Idx) : val_main_v48 (F := Ideal) i = 0 := by
  rw [val_main_v48_apply, val_main_v46_apply, val_main_cst_6_apply]; exact Ideal.ofBits_zero_f32
theorem zero_v64 (i : S2x100000x64.Idx) : val_main_v64 (F := Ideal) i = 0 := by
  rw [val_main_v64_apply, val_main_v62_apply, val_main_cst_9_apply]; exact Ideal.ofBits_zero_f32

/-- The row index column read at edge `e` is the row index of `e`. -/
theorem rowcol_v13 (e : Fin 1600000) : val_main_v13 (F := Ideal) x6 (ix2 e 0) = x6 (ix1 e) := by
  rw [val_main_v13_apply]; exact congrArg x6 (funext fun a => by match a with | ⟨0, _⟩ => rfl)

theorem rowsum_v15 (k : Fin 2) (n : Fin 100000) (c : Fin 64) :
    val_main_v15 (F := Ideal) x0 x2 x6 x7 (ix3 k n c)
      = ∑ e : Fin 1600000, if Spec.lands x6 e n then x2 (ix2 k e) * gatheredRe x0 x7 (ix2 e c) else 0 := by
  unfold val_main_v15
  rw [scatter_eq, scatterAdd_batchedRows_apply, zero_v14, zero_add]
  refine Finset.sum_congr rfl fun e _ => ?_
  rw [rowcol_v13, scaled_v11]

theorem rowcol_v29 (e : Fin 1600000) : val_main_v29 (F := Ideal) x6 (ix2 e 0) = x6 (ix1 e) := by
  rw [val_main_v29_apply]; exact congrArg x6 (funext fun a => by match a with | ⟨0, _⟩ => rfl)
theorem rowcol_v47 (e : Fin 1600000) : val_main_v47 (F := Ideal) x6 (ix2 e 0) = x6 (ix1 e) := by
  rw [val_main_v47_apply]; exact congrArg x6 (funext fun a => by match a with | ⟨0, _⟩ => rfl)
theorem rowcol_v63 (e : Fin 1600000) : val_main_v63 (F := Ideal) x6 (ix2 e 0) = x6 (ix1 e) := by
  rw [val_main_v63_apply]; exact congrArg x6 (funext fun a => by match a with | ⟨0, _⟩ => rfl)

theorem rowsum_v31 (k : Fin 2) (n : Fin 100000) (c : Fin 64) :
    val_main_v31 (F := Ideal) x1 x3 x6 x7 (ix3 k n c)
      = ∑ e : Fin 1600000, if Spec.lands x6 e n then x3 (ix2 k e) * gatheredIm x1 x7 (ix2 e c) else 0 := by
  unfold val_main_v31
  rw [scatter_eq, scatterAdd_batchedRows_apply, zero_v30, zero_add]
  refine Finset.sum_congr rfl fun e _ => ?_
  rw [rowcol_v29, scaled_v27]

theorem rowsum_v49 (k : Fin 2) (n : Fin 100000) (c : Fin 64) :
    val_main_v49 (F := Ideal) x0 x3 x6 x7 (ix3 k n c)
      = ∑ e : Fin 1600000, if Spec.lands x6 e n then x3 (ix2 k e) * gatheredRe x0 x7 (ix2 e c) else 0 := by
  unfold val_main_v49
  rw [scatter_eq, scatterAdd_batchedRows_apply, zero_v48, zero_add]
  refine Finset.sum_congr rfl fun e _ => ?_
  rw [rowcol_v47, scaled_v45]

theorem rowsum_v65 (k : Fin 2) (n : Fin 100000) (c : Fin 64) :
    val_main_v65 (F := Ideal) x1 x2 x6 x7 (ix3 k n c)
      = ∑ e : Fin 1600000, if Spec.lands x6 e n then x2 (ix2 k e) * gatheredIm x1 x7 (ix2 e c) else 0 := by
  unfold val_main_v65
  rw [scatter_eq, scatterAdd_batchedRows_apply, zero_v64, zero_add]
  refine Finset.sum_congr rfl fun e _ => ?_
  rw [rowcol_v63, scaled_v61]

/-! ## The two results -/

/-- The reference's real result at `(n, o)` is the node-first form. -/
theorem real_apply (n : Fin 100000) (o : Fin 64) :
    val_main_v70 (F := Ideal) x0 x1 x2 x3 x4 x5 x6 x7 (ix2 n o)
      = Spec.nodeFirstRe (gatheredRe x0 x7) (gatheredIm x1 x7) x2 x3 x4 x5 x6 n o := by
  rw [val_main_v70_apply, val_main_v68_apply, val_main_v69_apply, val_main_cst_10_apply]
  unfold Spec.nodeFirstRe
  have eb : idx_main_v69 (ix2 n o) = ix2 0 o := funext fun a => by match a with | ⟨0, _⟩ => rfl | ⟨1, _⟩ => rfl
  rw [eb]
  show (Ideal.ofBits .f32 0x00000000#32 + _) + _ = _
  rw [Ideal.ofBits_zero_f32, zero_add]
  refine congrArg (· + x5 (ix2 0 o)) (Finset.sum_congr rfl fun k _ => ?_)
  have ek : idx_main_v68 (ix2 n o) k = ix3 k n o :=
    funext fun a => by match a with | ⟨0, _⟩ => rfl | ⟨1, _⟩ => rfl | ⟨2, _⟩ => rfl
  rw [ek, val_main_v33_apply]
  refine Finset.sum_congr rfl fun c _ => ?_
  have el : lidx_main_v33 (ix3 k n o) c = ix3 k n c :=
    funext fun a => by match a with | ⟨0, _⟩ => rfl | ⟨1, _⟩ => rfl | ⟨2, _⟩ => rfl
  have er : ridx_main_v33 (ix3 k n o) c = ix3 k c o :=
    funext fun a => by match a with | ⟨0, _⟩ => rfl | ⟨1, _⟩ => rfl | ⟨2, _⟩ => rfl
  rw [el, er, val_main_v32_apply, rowsum_v15, rowsum_v31]
  rfl

/-- The reference's imaginary result at `(n, o)` is the node-first form. -/
theorem imag_apply (n : Fin 100000) (o : Fin 64) :
    val_main_v73 (F := Ideal) x0 x1 x2 x3 x4 x5 x6 x7 (ix2 n o)
      = Spec.nodeFirstIm (gatheredRe x0 x7) (gatheredIm x1 x7) x2 x3 x4 x5 x6 n o := by
  rw [val_main_v73_apply, val_main_v71_apply, val_main_v72_apply, val_main_cst_11_apply]
  unfold Spec.nodeFirstIm
  have eb : idx_main_v72 (ix2 n o) = ix2 0 o := funext fun a => by match a with | ⟨0, _⟩ => rfl | ⟨1, _⟩ => rfl
  rw [eb]
  show (Ideal.ofBits .f32 0x00000000#32 + _) + _ = _
  rw [Ideal.ofBits_zero_f32, zero_add]
  refine congrArg (· + x5 (ix2 0 o)) (Finset.sum_congr rfl fun k _ => ?_)
  have ek : idx_main_v71 (ix2 n o) k = ix3 k n o :=
    funext fun a => by match a with | ⟨0, _⟩ => rfl | ⟨1, _⟩ => rfl | ⟨2, _⟩ => rfl
  rw [ek, val_main_v67_apply]
  refine Finset.sum_congr rfl fun c _ => ?_
  have el : lidx_main_v67 (ix3 k n o) c = ix3 k n c :=
    funext fun a => by match a with | ⟨0, _⟩ => rfl | ⟨1, _⟩ => rfl | ⟨2, _⟩ => rfl
  have er : ridx_main_v67 (ix3 k n o) c = ix3 k c o :=
    funext fun a => by match a with | ⟨0, _⟩ => rfl | ⟨1, _⟩ => rfl | ⟨2, _⟩ => rfl
  rw [el, er, val_main_v66_apply, rowsum_v49, rowsum_v65]
  rfl

end Cert.ReferenceIdeal.RefValue

end
-- ==== Proof.KernelBlock.lean ====
/-
  What one grid step of the kernel leaves in its two output blocks, element by element, over the extended reals.

  A step sees 6400 edges: `x0`, `x1` are the gathered real and imaginary feature rows of those edges (`[6400, 64]`),
  `x2` their four scale columns `[lr₀, lr₁, li₀, li₁]` (`[6400, 4]`), `x3` the two channel mixers (`[2, 64, 64]`).
  Changes of float format are the identity here, a matrix product onto a zero accumulator is the plain sum over the
  contracted channel, and adding the zero the accumulators start from changes nothing.  So for edge `r` and output channel `o`
    real block  = Σ_c (lr₀ r · x0 r c − li₀ r · x1 r c) · x3 0 c o + Σ_c (lr₁ r · x0 r c − li₁ r · x1 r c) · x3 1 c o
    imag block  = Σ_c (li₀ r · x0 r c + lr₀ r · x1 r c) · x3 0 c o + Σ_c (li₁ r · x0 r c + lr₁ r · x1 r c) · x3 1 c o.
-/
import proofs.«179885_j9560597201099_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Idealize.ShloMosaic Idealize.ShloMosaic.ValueIdx Cert.KernelIdeal Cert.KernelIdeal.Gen

/-! ## Reading the loads, the layout operations and the product at an index

Below, `u`, `w` stand for the two feature blocks, `a`, `b` for two scale columns and `m` for a mixer slab. -/

/-- The offset `(0, 0)` is the zero offset. -/
private theorem hz2 : (![0, 0] : Fin 2 → Nat) = fun _ => 0 := funext fun a => by fin_cases a <;> rfl

/-- A column vector broadcast along the rows' channel axis reads its row. -/
private theorem bcol_apply (v : FVec Ideal S6400x1 .f32) (r : Fin 6400) (c : Fin 64) :
    broadcastTo S6400x64 v broadcasts_S6400x1_S6400x64 (ix2 r c) = v (ix2 r 0) :=
  broadcastTo_apply v broadcasts_S6400x1_S6400x64 (ix2 r c) (ix2 r 0) (fun a => match a with
    | ⟨0, _⟩ => by show r.val = if (6400 : Nat) = 1 then 0 else r.val; rw [if_neg (by decide)]
    | ⟨1, _⟩ => by show 0 = if (1 : Nat) = 1 then 0 else c.val; rw [if_pos rfl])

/-- The four one-column reads of the scale block `x2`: row `r` of the column read at offset `(0, k)` is `x2 r k`. -/
private theorem ld_col0 (x2 : Vec Ideal S6400x4 .f32) (r : Fin 6400) : View.ld x2 r0_1 (ix2 r 0) = x2 (ix2 r 0) :=
  congrArg x2 (funext fun a => Fin.ext (match a with
    | ⟨0, _⟩ => by show 0 + 1 * r.val = r.val; omega
    | ⟨1, _⟩ => rfl))
private theorem ld_col2 (x2 : Vec Ideal S6400x4 .f32) (r : Fin 6400) : View.ld x2 r0_2 (ix2 r 0) = x2 (ix2 r 2) :=
  congrArg x2 (funext fun a => Fin.ext (match a with
    | ⟨0, _⟩ => by show 0 + 1 * r.val = r.val; omega
    | ⟨1, _⟩ => rfl))
private theorem ld_col1 (x2 : Vec Ideal S6400x4 .f32) (r : Fin 6400) : View.ld x2 r0_4 (ix2 r 0) = x2 (ix2 r 1) :=
  congrArg x2 (funext fun a => Fin.ext (match a with
    | ⟨0, _⟩ => by show 0 + 1 * r.val = r.val; omega
    | ⟨1, _⟩ => rfl))
private theorem ld_col3 (x2 : Vec Ideal S6400x4 .f32) (r : Fin 6400) : View.ld x2 r0_5 (ix2 r 0) = x2 (ix2 r 3) :=
  congrArg x2 (funext fun a => Fin.ext (match a with
    | ⟨0, _⟩ => by show 0 + 1 * r.val = r.val; omega
    | ⟨1, _⟩ => rfl))

/-- The two one-slab reads of the mixers `x3`: entry `(0, c, o)` of the slab read at offset `(k, 0, 0)` is `x3 k c o`. -/
private theorem ld_mix0 (x3 : Vec Ideal S2x64x64 .f32) (c o : Fin 64) : View.ld x3 r0_3 (ix3 0 c o) = x3 (ix3 0 c o) :=
  congrArg x3 (funext fun a => Fin.ext (match a with
    | ⟨0, _⟩ => rfl
    | ⟨1, _⟩ => by show 0 + 1 * c.val = c.val; omega
    | ⟨2, _⟩ => by show 0 + 1 * o.val = o.val; omega))
private theorem ld_mix1 (x3 : Vec Ideal S2x64x64 .f32) (c o : Fin 64) : View.ld x3 r0_6 (ix3 0 c o) = x3 (ix3 1 c o) :=
  congrArg x3 (funext fun a => Fin.ext (match a with
    | ⟨0, _⟩ => rfl
    | ⟨1, _⟩ => by show 0 + 1 * c.val = c.val; omega
    | ⟨2, _⟩ => by show 0 + 1 * o.val = o.val; omega))

/-- A `[1, 64, 64]` slab viewed as a `[64, 64]` matrix: entry `(c, o)` is entry `(0, c, o)` (same row-major position). -/
private theorem cast_mix (v : Vec Ideal S1x64x64 .f32) (c o : Fin 64) :
    shapeCast S64x64 v shapeCasts_S1x64x64_S64x64 (ix2 c o) = v (ix3 0 c o) :=
  shapeCast_apply v shapeCasts_S1x64x64_S64x64 (ix2 c o) (ix3 0 c o) (by
    rw [Shape.rowMajor_val_three, Shape.rowMajor_val_two]
    show (0 * 64 + c.val) * 64 + o.val = c.val * 64 + o.val
    omega)

/-- The product's operand indices: the left operand is read at (row of the output, contracted channel), the right at
    (contracted channel, column of the output). -/
private theorem mm_lhs_0 (i : S6400x64.Idx) (q : dot_S6400x64_S64x64_S6400x64_1_0_0_1_n_n.contr.Idx) :
    (dot_S6400x64_S64x64_S6400x64_1_0_0_1_n_n.lhsIdx i q 0).val = (i 0).val := by
  unfold DotDims.lhsIdx
  rw [dif_neg (show ¬(0 : Fin S6400x64.rank) ∈ dot_S6400x64_S64x64_S6400x64_1_0_0_1_n_n.lhsBatch by decide), dif_pos (show (0 : Fin S6400x64.rank) ∈ dot_S6400x64_S64x64_S6400x64_1_0_0_1_n_n.lhsNonContracting by decide)]
  rfl
private theorem mm_lhs_1 (i : S6400x64.Idx) (q : dot_S6400x64_S64x64_S6400x64_1_0_0_1_n_n.contr.Idx) :
    (dot_S6400x64_S64x64_S6400x64_1_0_0_1_n_n.lhsIdx i q 1).val = (q ⟨0, by decide⟩).val :=
  dot_S6400x64_S64x64_S6400x64_1_0_0_1_n_n.lhsIdx_val_of_single rfl i q
private theorem mm_rhs_0 (i : S6400x64.Idx) (q : dot_S6400x64_S64x64_S6400x64_1_0_0_1_n_n.contr.Idx) :
    (dot_S6400x64_S64x64_S6400x64_1_0_0_1_n_n.rhsIdx i q 0).val = (q ⟨0, by decide⟩).val :=
  dot_S6400x64_S64x64_S6400x64_1_0_0_1_n_n.rhsIdx_val_of_single rfl i q
private theorem mm_rhs_1 (i : S6400x64.Idx) (q : dot_S6400x64_S64x64_S6400x64_1_0_0_1_n_n.contr.Idx) :
    (dot_S6400x64_S64x64_S6400x64_1_0_0_1_n_n.rhsIdx i q 1).val = (i 1).val := by
  unfold DotDims.rhsIdx
  rw [dif_neg (show ¬(1 : Fin S64x64.rank) ∈ dot_S6400x64_S64x64_S6400x64_1_0_0_1_n_n.rhsBatch by decide), dif_pos (show (1 : Fin S64x64.rank) ∈ dot_S6400x64_S64x64_S6400x64_1_0_0_1_n_n.rhsNonContracting by decide)]
  rfl

/-- A product onto the zero accumulator, at (r, o): the sum over the contracted channel. -/
private theorem mm_apply (l : FVec Ideal S6400x64 .bf16) (w : FVec Ideal S64x64 .bf16) (r : Fin 6400) (o : Fin 64) :
    matmul (F := Ideal) dot_S6400x64_S64x64_S6400x64_1_0_0_1_n_n none l w (constant (F := Ideal) S6400x64 .f32 0x00000000#32) (ix2 r o)
      = ∑ c : Fin 64, l (ix2 r c) * w (ix2 c o) := by
  simp only [matmul]
  rw [Ideal.matmul_constant_zero_apply, ← Equiv.sum_comp (contrEquiv1 dot_S6400x64_S64x64_S6400x64_1_0_0_1_n_n 64 rfl rfl).symm]
  refine Finset.sum_congr rfl fun k _ => ?_
  have hk := contrEquiv1_symm_val dot_S6400x64_S64x64_S6400x64_1_0_0_1_n_n 64 rfl rfl k
  have el : dot_S6400x64_S64x64_S6400x64_1_0_0_1_n_n.lhsIdx (ix2 r o) ((contrEquiv1 dot_S6400x64_S64x64_S6400x64_1_0_0_1_n_n 64 rfl rfl).symm k) = ix2 r k := funext fun a => Fin.ext (by
    match a with
    | ⟨0, _⟩ => exact mm_lhs_0 _ _
    | ⟨1, _⟩ => exact (mm_lhs_1 _ _).trans hk)
  have er : dot_S6400x64_S64x64_S6400x64_1_0_0_1_n_n.rhsIdx (ix2 r o) ((contrEquiv1 dot_S6400x64_S64x64_S6400x64_1_0_0_1_n_n 64 rfl rfl).symm k) = ix2 k o := funext fun a => Fin.ext (by
    match a with
    | ⟨0, _⟩ => exact (mm_rhs_0 _ _).trans hk
    | ⟨1, _⟩ => exact mm_rhs_1 _ _)
  rw [el, er]

/-- Widening a feature block changes no value. -/
private theorem pay4_apply (v0 : Vec Ideal S6400x64 .bf16) (i : S6400x64.Idx) : k0_pay4 (F := Ideal) v0 i = v0 i := by
  unfold k0_pay4
  show (extf .f32 (shapeCast S6400x64 v0 shapeCasts_S6400x64_S6400x64) bitsLt_bf16_f32 : FVec Ideal S6400x64 .f32) i = v0 i
  rw [extf_apply, shapeCast_self]
private theorem pay5_apply (v3 : Vec Ideal S6400x64 .bf16) (i : S6400x64.Idx) : k0_pay5 (F := Ideal) v3 i = v3 i := by
  unfold k0_pay5
  show (extf .f32 (shapeCast S6400x64 v3 shapeCasts_S6400x64_S6400x64) bitsLt_bf16_f32 : FVec Ideal S6400x64 .f32) i = v3 i
  rw [extf_apply, shapeCast_self]
/-- A cast of a scale column to its own shape is the identity. -/
private theorem pay6_eq (v : Vec Ideal S6400x1 .f32) : k0_pay6 (F := Ideal) v = v := by
  unfold k0_pay6; exact shapeCast_self _ _
private theorem pay7_eq (v : Vec Ideal S6400x1 .f32) : k0_pay7 (F := Ideal) v = v := by
  unfold k0_pay7; exact shapeCast_self _ _
private theorem pay11_eq (v : Vec Ideal S6400x1 .f32) : k0_pay11 (F := Ideal) v = v := by
  unfold k0_pay11; exact shapeCast_self _ _
private theorem pay12_eq (v : Vec Ideal S6400x1 .f32) : k0_pay12 (F := Ideal) v = v := by
  unfold k0_pay12; exact shapeCast_self _ _
/-- A mixer slab as the product's right operand: entry `(c, o)` is the slab's `(0, c, o)`. -/
private theorem pay8_apply (v : Vec Ideal S1x64x64 .f32) (c o : Fin 64) : k0_pay8 (F := Ideal) v (ix2 c o) = v (ix3 0 c o) := by
  unfold k0_pay8
  show (truncf .bf16 (shapeCast S64x64 v shapeCasts_S1x64x64_S64x64) bitsLt_bf16_f32 : FVec Ideal S64x64 .bf16) (ix2 c o) = v (ix3 0 c o)
  rw [truncf_apply, cast_mix]
private theorem pay1_apply (v : Vec Ideal S1x64x64 .f32) (c o : Fin 64) : k0_pay1 (F := Ideal) v (ix2 c o) = v (ix3 0 c o) := by
  unfold k0_pay1
  show (truncf .bf16 (shapeCast S64x64 v shapeCasts_S1x64x64_S64x64) bitsLt_bf16_f32 : FVec Ideal S64x64 .bf16) (ix2 c o) = v (ix3 0 c o)
  rw [truncf_apply, cast_mix]

/-- The first real partial block: `0 + Σ_c (a r · u r c − b r · w r c) · m 0 c o`. -/
private theorem pay9_apply (v0 v3 : Vec Ideal S6400x64 .bf16) (v8 v10 : Vec Ideal S6400x1 .f32) (v24 : Vec Ideal S1x64x64 .f32)
    (r : Fin 6400) (o : Fin 64) :
    k0_pay9 (F := Ideal) v0 v3 v8 v10 v24 (ix2 r o)
      = ∑ c : Fin 64, (v8 (ix2 r 0) * v0 (ix2 r c) - v10 (ix2 r 0) * v3 (ix2 r c)) * v24 (ix3 0 c o) := by
  unfold k0_pay9
  simp only [addf_apply, broadcast_apply, mm_apply, truncf_apply, subf_apply, mulf_apply, bcol_apply, pay4_apply, pay5_apply, pay6_eq, pay7_eq, pay8_apply]
  show Ideal.ofBits .f32 0x00000000#32 + _ = _
  rw [Ideal.ofBits_zero_f32, zero_add]

/-- The first imaginary partial block: `0 + Σ_c (b r · u r c + a r · w r c) · m 0 c o`. -/
private theorem pay10_apply (v0 v3 : Vec Ideal S6400x64 .bf16) (v8 v10 : Vec Ideal S6400x1 .f32) (v24 : Vec Ideal S1x64x64 .f32)
    (r : Fin 6400) (o : Fin 64) :
    k0_pay10 (F := Ideal) v0 v3 v8 v10 v24 (ix2 r o)
      = ∑ c : Fin 64, (v10 (ix2 r 0) * v0 (ix2 r c) + v8 (ix2 r 0) * v3 (ix2 r c)) * v24 (ix3 0 c o) := by
  unfold k0_pay10
  simp only [addf_apply, broadcast_apply, mm_apply, truncf_apply, mulf_apply, bcol_apply, pay4_apply, pay5_apply, pay6_eq, pay7_eq, pay8_apply]
  show Ideal.ofBits .f32 0x00000000#32 + _ = _
  rw [Ideal.ofBits_zero_f32, zero_add]

/-- The second real combination before its product: `a r · u r c − b r · w r c`. -/
private theorem pay13_apply (v0 v3 : Vec Ideal S6400x64 .bf16) (v31 v33 : Vec Ideal S6400x1 .f32) (r : Fin 6400) (c : Fin 64) :
    k0_pay13 (F := Ideal) v0 v3 v31 v33 (ix2 r c) = v31 (ix2 r 0) * v0 (ix2 r c) - v33 (ix2 r 0) * v3 (ix2 r c) := by
  unfold k0_pay13
  simp only [subf_apply, mulf_apply, bcol_apply, pay4_apply, pay5_apply, pay11_eq, pay12_eq]

/-- The stored real block: the first partial block plus the second product. -/
private theorem pay2_apply (v28 v39 : FVec Ideal S6400x64 .f32) (v47 : Vec Ideal S1x64x64 .f32) (r : Fin 6400) (o : Fin 64) :
    k0_pay2 (F := Ideal) v28 v39 v47 (ix2 r o) = v28 (ix2 r o) + ∑ c : Fin 64, v39 (ix2 r c) * v47 (ix3 0 c o) := by
  unfold k0_pay2
  simp only [addf_apply, mm_apply, truncf_apply, pay1_apply]

/-- The stored imaginary block: the first partial block plus the product of the second combination
    `b r · u r c + a r · w r c`. -/
private theorem pay3_apply (v2 v5 v30 : FVec Ideal S6400x64 .f32) (v32 v34 : FVec Ideal S6400x1 .f32) (v47 : Vec Ideal S1x64x64 .f32)
    (r : Fin 6400) (o : Fin 64) :
    k0_pay3 (F := Ideal) v2 v5 v30 v32 v34 v47 (ix2 r o)
      = v30 (ix2 r o) + ∑ c : Fin 64, (v34 (ix2 r 0) * v2 (ix2 r c) + v32 (ix2 r 0) * v5 (ix2 r c)) * v47 (ix3 0 c o) := by
  unfold k0_pay3
  simp only [addf_apply, mm_apply, truncf_apply, mulf_apply, bcol_apply, pay1_apply]

/-! ## The two output blocks -/

/-- The real output block at `(r, o)`. -/
theorem re_block_apply (x0 x1 : Vec Ideal S6400x64 .bf16) (x2 : Vec Ideal S6400x4 .f32) (x3 : Vec Ideal S2x64x64 .f32)
    (r : Fin 6400) (o : Fin 64) :
    out0_4 (F := Ideal) x0 x1 x2 x3 (ix2 r o)
      = (∑ c : Fin 64, (x2 (ix2 r 0) * x0 (ix2 r c) - x2 (ix2 r 2) * x1 (ix2 r c)) * x3 (ix3 0 c o))
        + ∑ c : Fin 64, (x2 (ix2 r 1) * x0 (ix2 r c) - x2 (ix2 r 3) * x1 (ix2 r c)) * x3 (ix3 1 c o) := by
  unfold out0_4
  rw [View.canon_unit_zero hz2]
  simp only [View.ld_unit_zero (S := S6400x64) hz2]
  rw [pay2_apply, pay9_apply]
  simp only [pay13_apply]
  refine congrArg₂ (· + ·) (Finset.sum_congr rfl fun c _ => ?_) (Finset.sum_congr rfl fun c _ => ?_)
  · rw [ld_col0, ld_col2, ld_mix0]
  · rw [ld_col1, ld_col3, ld_mix1]

/-- The imaginary output block at `(r, o)`. -/
theorem im_block_apply (x0 x1 : Vec Ideal S6400x64 .bf16) (x2 : Vec Ideal S6400x4 .f32) (x3 : Vec Ideal S2x64x64 .f32)
    (r : Fin 6400) (o : Fin 64) :
    out0_5 (F := Ideal) x0 x1 x2 x3 (ix2 r o)
      = (∑ c : Fin 64, (x2 (ix2 r 2) * x0 (ix2 r c) + x2 (ix2 r 0) * x1 (ix2 r c)) * x3 (ix3 0 c o))
        + ∑ c : Fin 64, (x2 (ix2 r 3) * x0 (ix2 r c) + x2 (ix2 r 1) * x1 (ix2 r c)) * x3 (ix3 1 c o) := by
  unfold out0_5
  rw [View.canon_unit_zero hz2]
  simp only [View.ld_unit_zero (S := S6400x64) hz2]
  rw [pay3_apply, pay10_apply]
  simp only [pay4_apply, pay5_apply, pay11_eq, pay12_eq]
  refine congrArg₂ (· + ·) (Finset.sum_congr rfl fun c _ => ?_) (Finset.sum_congr rfl fun c _ => ?_)
  · rw [ld_col0, ld_col2, ld_mix0]
  · rw [ld_col1, ld_col3, ld_mix1]

end Cert.KernelIdeal.Block

end
-- ==== Proof.KernelArrays.lean ====
/-
  From blocks to arrays: after all 250 grid steps the kernel's two output arrays hold, edge by edge, the channel-mixed
  contributions of that edge.

  Step `t` sees edges `6400 t … 6400 t + 6399`: block `t` of each per-edge array is rows `6400 t + r`; the channel mixers are
  seen whole at every step.  Each step writes its output blocks back, and the 250 blocks tile the `[1600000, 64]` arrays,
  so every entry `(e, o)` of an output array is what step `e / 6400` computed for its row `e % 6400`.
-/
import proofs.«179885_j9560597201099_1_alg».proof.Proof.Gen.KernelIdeal.Frame
import proofs.«179885_j9560597201099_1_alg».proof.Proof.KernelBlock
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen

variable (m : (ℓ : Loc nD τ sig) → Buf (Elt Ideal) ℓ)

/-- Where each window's block sits at step `t`: the per-edge windows at block row `t`, the mixers at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Block `t` of the gathered real features is rows `6400 t + r` of the array. -/
theorem xr_block (c : Dev nD) (t : Fin cfg0.N) (y : S6400x64.Idx) (k : S1600000x64.Idx)
    (h0 : (k 0).val = 6400 * t.val + (y 0).val) (h1 : (k 1).val = (y 1).val) :
    (iblk m c 0 t : Vec Ideal S6400x64 .bf16) y = (V m c main_v8 : S1600000x64.Idx → EReal) k := by
  obtain ⟨e0, e1, -⟩ := idx_facts t
  unfold iblk
  rw [View.read_apply]
  show V m c main_v8 _ = V m c main_v8 _
  congr 1
  funext a
  apply Fin.ext
  match a with
  | ⟨0, _⟩ => show win0_0.index t 0 * 6400 + 1 * (y 0).val = (k 0).val; rw [e0, h0]; omega
  | ⟨1, _⟩ => show win0_0.index t 1 * 64 + 1 * (y 1).val = (k 1).val; rw [e1, h1]; omega

/-- Block `t` of the gathered imaginary features. -/
theorem xi_block (c : Dev nD) (t : Fin cfg0.N) (y : S6400x64.Idx) (k : S1600000x64.Idx)
    (h0 : (k 0).val = 6400 * t.val + (y 0).val) (h1 : (k 1).val = (y 1).val) :
    (iblk m c 1 t : Vec Ideal S6400x64 .bf16) y = (V m c main_v15 : S1600000x64.Idx → EReal) k := by
  obtain ⟨-, -, e0, e1, -⟩ := idx_facts t
  unfold iblk
  rw [View.read_apply]
  show V m c main_v15 _ = V m c main_v15 _
  congr 1
  funext a
  apply Fin.ext
  match a with
  | ⟨0, _⟩ => show win0_1.index t 0 * 6400 + 1 * (y 0).val = (k 0).val; rw [e0, h0]; omega
  | ⟨1, _⟩ => show win0_1.index t 1 * 64 + 1 * (y 1).val = (k 1).val; rw [e1, h1]; omega

/-- Block `t` of the four scale columns. -/
theorem scale_block (c : Dev nD) (t : Fin cfg0.N) (y : S6400x4.Idx) (k : S1600000x4.Idx)
    (h0 : (k 0).val = 6400 * t.val + (y 0).val) (h1 : (k 1).val = (y 1).val) :
    (iblk m c 2 t : Vec Ideal S6400x4 .f32) y = (V m c main_v18 : S1600000x4.Idx → EReal) k := by
  obtain ⟨-, -, -, -, e0, e1, -⟩ := idx_facts t
  unfold iblk
  rw [View.read_apply]
  show V m c main_v18 _ = V m c main_v18 _
  congr 1
  funext a
  apply Fin.ext
  match a with
  | ⟨0, _⟩ => show win0_2.index t 0 * 6400 + 1 * (y 0).val = (k 0).val; rw [e0, h0]; omega
  | ⟨1, _⟩ => show win0_2.index t 1 * 4 + 1 * (y 1).val = (k 1).val; rw [e1, h1]; omega

/-- The channel mixers are seen whole at every step. -/
theorem mixer_block (c : Dev nD) (t : Fin cfg0.N) (y : S2x64x64.Idx) :
    (iblk m c 3 t : Vec Ideal S2x64x64 .f32) y = (V m c main_arg4 : S2x64x64.Idx → EReal) y := by
  obtain ⟨-, -, -, -, -, -, e0, e1, e2, -⟩ := idx_facts t
  unfold iblk
  rw [View.read_apply]
  show V m c main_arg4 _ = V m c main_arg4 _
  congr 1
  funext a
  apply Fin.ext
  match a with
  | ⟨0, _⟩ => show win0_3.index t 0 * 2 + 1 * (y 0).val = (y 0).val; rw [e0]; omega
  | ⟨1, _⟩ => show win0_3.index t 1 * 64 + 1 * (y 1).val = (y 1).val; rw [e1]; omega
  | ⟨2, _⟩ => show win0_3.index t 2 * 64 + 1 * (y 2).val = (y 2).val; rw [e2]; omega

/-! ## The two output arrays as functions of the arrays the region finds -/

/-- Edge `e`'s channel-mixed real contribution at output channel `o`. -/
def contribRe (a0 a1 : S1600000x64.Idx → EReal) (a2 : S1600000x4.Idx → EReal) (a3 : S2x64x64.Idx → EReal) :
    S1600000x64.Idx → EReal := fun i =>
  (∑ c : Fin 64, (a2 (ix2 (i 0) 0) * a0 (ix2 (i 0) c) - a2 (ix2 (i 0) 2) * a1 (ix2 (i 0) c)) * a3 (ix3 0 c (i 1)))
    + ∑ c : Fin 64, (a2 (ix2 (i 0) 1) * a0 (ix2 (i 0) c) - a2 (ix2 (i 0) 3) * a1 (ix2 (i 0) c)) * a3 (ix3 1 c (i 1))

/-- Edge `e`'s channel-mixed imaginary contribution at output channel `o`. -/
def contribIm (a0 a1 : S1600000x64.Idx → EReal) (a2 : S1600000x4.Idx → EReal) (a3 : S2x64x64.Idx → EReal) :
    S1600000x64.Idx → EReal := fun i =>
  (∑ c : Fin 64, (a2 (ix2 (i 0) 2) * a0 (ix2 (i 0) c) + a2 (ix2 (i 0) 0) * a1 (ix2 (i 0) c)) * a3 (ix3 0 c (i 1)))
    + ∑ c : Fin 64, (a2 (ix2 (i 0) 3) * a0 (ix2 (i 0) c) + a2 (ix2 (i 0) 1) * a1 (ix2 (i 0) c)) * a3 (ix3 1 c (i 1))

/-- WHAT STEP `t` WRITES BACK to the real output is block `t` of `contribRe`. -/
theorem flushed_re (c : Dev nD) (t : Fin cfg0.N) :
    (dats m 0 c).flushed 4 t
      = ((cfg0.win 4).blk t).view.read (Elt Ideal)
          (contribRe (V m c main_v8) (V m c main_v15) (V m c main_v18) (V m c main_arg4)) := by
  show (cfg0.win 4).cut (grid0.coords t) ((dats m 0 c).after 4 t) = _
  rw [after0_4]
  obtain ⟨-, -, -, -, -, -, -, -, -, e0, e1, -⟩ := idx_facts t
  funext (j : S6400x64.Idx)
  obtain ⟨r, o, rfl⟩ : ∃ (r : Fin 6400) (o : Fin 64), j = ix2 r o := ⟨j 0, j 1, eq_ix2 j⟩
  refine (Block.re_block_apply (iblk m c 0 t) (iblk m c 1 t) (iblk m c 2 t) (iblk m c 3 t) r o).trans ?_
  show _ = contribRe (V m c main_v8) (V m c main_v15) (V m c main_v18) (V m c main_arg4)
    (((cfg0.win 4).blk t).view.emb (ix2 r o))
  generalize hi : ((cfg0.win 4).blk t).view.emb (ix2 r o) = i
  have h0 : (i 0).val = 6400 * t.val + r.val := by
    rw [← hi]; show win0_4.index t 0 * 6400 + 1 * r.val = _; rw [e0]; omega
  have h1 : i 1 = o := by
    rw [← hi]; exact Fin.ext (by show win0_4.index t 1 * 64 + 1 * o.val = _; rw [e1]; omega)
  unfold contribRe
  rw [h1]
  refine congrArg₂ (· + ·) (Finset.sum_congr rfl fun c' _ => ?_) (Finset.sum_congr rfl fun c' _ => ?_)
  · rw [scale_block m c t (ix2 r 0) (ix2 (i 0) 0) h0 rfl, xr_block m c t (ix2 r c') (ix2 (i 0) c') h0 rfl,
      scale_block m c t (ix2 r 2) (ix2 (i 0) 2) h0 rfl, xi_block m c t (ix2 r c') (ix2 (i 0) c') h0 rfl,
      mixer_block m c t (ix3 0 c' o)]
  · rw [scale_block m c t (ix2 r 1) (ix2 (i 0) 1) h0 rfl, xr_block m c t (ix2 r c') (ix2 (i 0) c') h0 rfl,
      scale_block m c t (ix2 r 3) (ix2 (i 0) 3) h0 rfl, xi_block m c t (ix2 r c') (ix2 (i 0) c') h0 rfl,
      mixer_block m c t (ix3 1 c' o)]

/-- WHAT STEP `t` WRITES BACK to the imaginary output is block `t` of `contribIm`. -/
theorem flushed_im (c : Dev nD) (t : Fin cfg0.N) :
    (dats m 0 c).flushed 5 t
      = ((cfg0.win 5).blk t).view.read (Elt Ideal)
          (contribIm (V m c main_v8) (V m c main_v15) (V m c main_v18) (V m c main_arg4)) := by
  show (cfg0.win 5).cut (grid0.coords t) ((dats m 0 c).after 5 t) = _
  rw [after0_5]
  obtain ⟨-, -, -, -, -, -, -, -, -, -, -, e0, e1⟩ := idx_facts t
  funext (j : S6400x64.Idx)
  obtain ⟨r, o, rfl⟩ : ∃ (r : Fin 6400) (o : Fin 64), j = ix2 r o := ⟨j 0, j 1, eq_ix2 j⟩
  refine (Block.im_block_apply (iblk m c 0 t) (iblk m c 1 t) (iblk m c 2 t) (iblk m c 3 t) r o).trans ?_
  show _ = contribIm (V m c main_v8) (V m c main_v15) (V m c main_v18) (V m c main_arg4)
    (((cfg0.win 5).blk t).view.emb (ix2 r o))
  generalize hi : ((cfg0.win 5).blk t).view.emb (ix2 r o) = i
  have h0 : (i 0).val = 6400 * t.val + r.val := by
    rw [← hi]; show win0_5.index t 0 * 6400 + 1 * r.val = _; rw [e0]; omega
  have h1 : i 1 = o := by
    rw [← hi]; exact Fin.ext (by show win0_5.index t 1 * 64 + 1 * o.val = _; rw [e1]; omega)
  unfold contribIm
  rw [h1]
  refine congrArg₂ (· + ·) (Finset.sum_congr rfl fun c' _ => ?_) (Finset.sum_congr rfl fun c' _ => ?_)
  · rw [scale_block m c t (ix2 r 2) (ix2 (i 0) 2) h0 rfl, xr_block m c t (ix2 r c') (ix2 (i 0) c') h0 rfl,
      scale_block m c t (ix2 r 0) (ix2 (i 0) 0) h0 rfl, xi_block m c t (ix2 r c') (ix2 (i 0) c') h0 rfl,
      mixer_block m c t (ix3 0 c' o)]
  · rw [scale_block m c t (ix2 r 3) (ix2 (i 0) 3) h0 rfl, xr_block m c t (ix2 r c') (ix2 (i 0) c') h0 rfl,
      scale_block m c t (ix2 r 1) (ix2 (i 0) 1) h0 rfl, xi_block m c t (ix2 r c') (ix2 (i 0) c') h0 rfl,
      mixer_block m c t (ix3 1 c' o)]

/-! ## The 250 blocks tile each output array -/

theorem mem_blk_re (t : Fin cfg0.N) (i : S1600000x64.Idx) :
    i ∈ ((cfg0.win 4).blk t).view.set ↔ ∀ a : Fin 2, win0_4.index t a * S6400x64.size a ≤ (i a).val
      ∧ (i a).val < win0_4.index t a * S6400x64.size a + S6400x64.size a := by
  show i ∈ ((View.whole main_v19_0).slice (win0_4.rect t)).set ↔ _
  rw [View.set_slice_whole, Rect.mem_set_unit]
  exact Iff.rfl

theorem mem_blk_im (t : Fin cfg0.N) (i : S1600000x64.Idx) :
    i ∈ ((cfg0.win 5).blk t).view.set ↔ ∀ a : Fin 2, win0_5.index t a * S6400x64.size a ≤ (i a).val
      ∧ (i a).val < win0_5.index t a * S6400x64.size a + S6400x64.size a := by
  show i ∈ ((View.whole main_v19_1).slice (win0_5.rect t)).set ↔ _
  rw [View.set_slice_whole, Rect.mem_set_unit]
  exact Iff.rfl

/-- The step whose block holds edge `e` is `e / 6400`. -/
def stepOf (i : S1600000x64.Idx) : Fin cfg0.N :=
  ⟨(i 0).val / 6400, by
    have h : (i 0).val < 1600000 := (i 0).isLt
    rw [show cfg0.N = 250 from N_0]; omega⟩

theorem cover_re (i : S1600000x64.Idx) :
    ∃ t : Fin cfg0.N, (cfg0.win 4).flush t = true ∧ i ∈ ((cfg0.win 4).blk t).view.set := by
  refine ⟨stepOf i, flush0_4 _, ?_⟩
  obtain ⟨-, -, -, -, -, -, -, -, -, e0, e1, -⟩ := idx_facts (stepOf i)
  have ht : (stepOf i).val = (i 0).val / 6400 := rfl
  have h1 : (i 1).val < 64 := (i 1).isLt
  rw [mem_blk_re]
  intro a
  match a with
  | ⟨0, _⟩ =>
    show win0_4.index (stepOf i) 0 * 6400 ≤ (i 0).val ∧ (i 0).val < win0_4.index (stepOf i) 0 * 6400 + 6400
    rw [e0, ht]; omega
  | ⟨1, _⟩ =>
    show win0_4.index (stepOf i) 1 * 64 ≤ (i 1).val ∧ (i 1).val < win0_4.index (stepOf i) 1 * 64 + 64
    rw [e1]; omega

theorem cover_im (i : S1600000x64.Idx) :
    ∃ t : Fin cfg0.N, (cfg0.win 5).flush t = true ∧ i ∈ ((cfg0.win 5).blk t).view.set := by
  refine ⟨stepOf i, flush0_5 _, ?_⟩
  obtain ⟨-, -, -, -, -, -, -, -, -, -, -, e0, e1⟩ := idx_facts (stepOf i)
  have ht : (stepOf i).val = (i 0).val / 6400 := rfl
  have h1 : (i 1).val < 64 := (i 1).isLt
  rw [mem_blk_im]
  intro a
  match a with
  | ⟨0, _⟩ =>
    show win0_5.index (stepOf i) 0 * 6400 ≤ (i 0).val ∧ (i 0).val < win0_5.index (stepOf i) 0 * 6400 + 6400
    rw [e0, ht]; omega
  | ⟨1, _⟩ =>
    show win0_5.index (stepOf i) 1 * 64 ≤ (i 1).val ∧ (i 1).val < win0_5.index (stepOf i) 1 * 64 + 64
    rw [e1]; omega

/-- THE REAL OUTPUT ARRAY after the run. -/
theorem final_re (c : Dev nD) :
    (dats m 0 c).arrAt 4 cfg0.N = contribRe (V m c main_v8) (V m c main_v15) (V m c main_v18) (V m c main_arg4) :=
  (dats m 0 c).arrAt_eq_of_cover 4 _ (fun t _ => flushed_re m c t) cover_re

/-- THE IMAGINARY OUTPUT ARRAY after the run. -/
theorem final_im (c : Dev nD) :
    (dats m 0 c).arrAt 5 cfg0.N = contribIm (V m c main_v8) (V m c main_v15) (V m c main_v18) (V m c main_arg4) :=
  (dats m 0 c).arrAt_eq_of_cover 5 _ (fun t _ => flushed_im m c t) cover_im

end Cert.KernelIdeal.Arrays

end
-- ==== Proof.KernelHost.lean ====
/-
  The kernel program around its one region.

  Before the region the host gathers each edge's source features (after a change of float format, which is the identity
  over the extended reals) and lays the four edge-weight rows out as four columns `[lr₀, lr₁, li₀, li₁]` per edge (two
  transposes and a concatenation).  After the region it sums the per-edge contributions of each result row with a
  scatter-add from zero and adds the bias row.  Read element by element, each result is the edge-first closed form.
-/
import proofs.«179885_j9560597201099_1_alg».proof.Proof.KernelArrays
import proofs.«179885_j9560597201099_1_alg».proof.Proof.Spec
import proofs.«179885_j9560597201099_1_alg».proof.Proof.LibScatterRows
import Idealize.ShloMosaic.Lib.Pipeline.Value
import Idealize.ShloMosaic.Lib.ValueLayout
import Idealize.ShloMosaic.Lib.StableHlo.Run
import Idealize.ShloMosaic.Lib.IdealHost

noncomputable section

open Idealize.ShloMosaic Idealize.ShloMosaic.TcCoe Idealize.SL.Sem Idealize.ShloMosaic.ValueIdx
open Idealize.ShloMosaic.StableHlo Idealize.ShloMosaic.ScatterRows
open Idealize.ShloMosaic.Pipeline (Dat)

namespace Cert.KernelIdeal.HostValue

open Cert.KernelIdeal Cert.KernelIdeal.Gen Cert.KernelIdeal.Arrays

variable (m : (ℓ : Loc nD τ sig) → Buf (Elt Ideal) ℓ) (ρ : Dev nD → PrngReg)

/-! ## What the region finds -/

/-- The column indices as the gather takes them: a negative index is moved up by the number of nodes, once. -/
def colIdx (x7 : IVec S1600000 32) : IVec S1600000x1 32 :=
  broadcastInDim S1600000x1 ![0] Facts₀.bcast_S1600000_S1600000x1_0
    (select (cmpi .slt x7 (broadcastInDim S1600000 ![] Facts₀.bcast_S_S1600000 (constantI S_ 32 0#32)))
      (addi x7 (broadcastInDim S1600000 ![] Facts₀.bcast_S_S1600000 (constantI S_ 32 100000#32))) x7)

/-- The real features of each edge's source node, as the gather returns them. -/
def gatheredRe (x0 : FVec Ideal S100000x64 .f32) (x7 : IVec S1600000 32) : FVec Ideal S1600000x64 .bf16 :=
  Host.gather gather_S100000x64_S1600000x1_S1600000x64_1_0_n_n_0_1_164 (truncf .bf16 x0 Facts₀.bitsLt_bf16_f32) (colIdx x7)

/-- The imaginary features of each edge's source node. -/
def gatheredIm (x1 : FVec Ideal S100000x64 .f32) (x7 : IVec S1600000 32) : FVec Ideal S1600000x64 .bf16 :=
  Host.gather gather_S100000x64_S1600000x1_S1600000x64_1_0_n_n_0_1_164 (truncf .bf16 x1 Facts₀.bitsLt_bf16_f32) (colIdx x7)

/-- The four scale columns per edge. -/
def scales (x2 x3 : FVec Ideal S2x1600000 .f32) : FVec Ideal S1600000x4 .f32 :=
  concatenate S1600000x4 1
    [⟨S1600000x2, transpose S1600000x2 [1, 0] x2 Facts₀.transposes_S2x1600000_S1600000x2_1_0⟩,
     ⟨S1600000x2, transpose S1600000x2 [1, 0] x3 Facts₀.transposes_S2x1600000_S1600000x2_1_0⟩]
    Facts₀.concatenates_S1600000x2_S1600000x2_S1600000x4_d1

theorem V_gatheredRe (c : Dev nD) :
    V m c main_v8 = gatheredRe (m ((c : Thread nD τ).loc main_arg0)) (m ((c : Thread nD τ).loc main_arg7)) := by
  show StableHlo.after hostOps0 (fun b => m (c, b)) (Proc.devRef .tc main_v8) = _
  after_results
  rfl

theorem V_gatheredIm (c : Dev nD) :
    V m c main_v15 = gatheredIm (m ((c : Thread nD τ).loc main_arg1)) (m ((c : Thread nD τ).loc main_arg7)) := by
  show StableHlo.after hostOps0 (fun b => m (c, b)) (Proc.devRef .tc main_v15) = _
  after_results
  rfl

theorem V_scales (c : Dev nD) :
    V m c main_v18 = scales (m ((c : Thread nD τ).loc main_arg2)) (m ((c : Thread nD τ).loc main_arg3)) := by
  show StableHlo.after hostOps0 (fun b => m (c, b)) (Proc.devRef .tc main_v18) = _
  after_results
  rfl

/-! ## The scale columns read at an edge -/

theorem scales_0 (x2 x3 : FVec Ideal S2x1600000 .f32) (e : Fin 1600000) : scales x2 x3 (ix2 e 0) = x2 (ix2 0 e) := by
  unfold scales
  refine (concatenate_pair_apply_left (t := S1600000x4) (s₁ := S1600000x2) (s₂ := S1600000x2) (1 : Fin 2) _ _ _ (ix2 e (0 : Fin 4)) rfl (ix2 e (0 : Fin 2))
    (fun b => by match b with | ⟨0, _⟩ => rfl | ⟨1, _⟩ => rfl)).trans ?_
  exact transpose_ix2_apply x2 _ e 0

theorem scales_1 (x2 x3 : FVec Ideal S2x1600000 .f32) (e : Fin 1600000) : scales x2 x3 (ix2 e 1) = x2 (ix2 1 e) := by
  unfold scales
  refine (concatenate_pair_apply_left (t := S1600000x4) (s₁ := S1600000x2) (s₂ := S1600000x2) (1 : Fin 2) _ _ _ (ix2 e (1 : Fin 4)) rfl (ix2 e (1 : Fin 2))
    (fun b => by match b with | ⟨0, _⟩ => rfl | ⟨1, _⟩ => rfl)).trans ?_
  exact transpose_ix2_apply x2 _ e 1

theorem scales_2 (x2 x3 : FVec Ideal S2x1600000 .f32) (e : Fin 1600000) : scales x2 x3 (ix2 e 2) = x3 (ix2 0 e) := by
  unfold scales
  refine (concatenate_pair_apply_right (t := S1600000x4) (s₁ := S1600000x2) (s₂ := S1600000x2) (1 : Fin 2) _ _ _ (ix2 e (2 : Fin 4)) rfl rfl (ix2 e (0 : Fin 2))
    (fun b hb => by match b with | ⟨0, _⟩ => rfl | ⟨1, _⟩ => exact absurd rfl hb) rfl).trans ?_
  exact transpose_ix2_apply x3 _ e 0

theorem scales_3 (x2 x3 : FVec Ideal S2x1600000 .f32) (e : Fin 1600000) : scales x2 x3 (ix2 e 3) = x3 (ix2 1 e) := by
  unfold scales
  refine (concatenate_pair_apply_right (t := S1600000x4) (s₁ := S1600000x2) (s₂ := S1600000x2) (1 : Fin 2) _ _ _ (ix2 e (3 : Fin 4)) rfl rfl (ix2 e (1 : Fin 2))
    (fun b hb => by match b with | ⟨0, _⟩ => rfl | ⟨1, _⟩ => exact absurd rfl hb) rfl).trans ?_
  exact transpose_ix2_apply x3 _ e 1

/-! ## What the lines after the region make of the two outputs -/

/-- The printed scatter record is the row scatter. -/
theorem scatter_eq : scatter_S100000x64_S1600000x1_S1600000x64_1_0_0_1
    = rowsDims 100000 1600000 64 Facts₀.scatter_S100000x64_S1600000x1_S1600000x64_1_0_0_1_wf := rfl

/-- The lines after the region, as one function of the bias row, the edges' row indices and a per-edge array: the rows'
    sums from zero, plus the bias. -/
def tailOf (x5 : FVec Ideal S1x64 .f32) (x6 : IVec S1600000 32) (A : FVec Ideal S1600000x64 .f32) :
    FVec Ideal S100000x64 .f32 :=
  addf (Host.scatterAdd scatter_S100000x64_S1600000x1_S1600000x64_1_0_0_1
      (broadcastInDim S100000x64 ![] Facts₀.bcast_S_S100000x64 (constant S_ .f32 0x00000000#32))
      (broadcastInDim S1600000x1 ![0] Facts₀.bcast_S1600000_S1600000x1_0 x6) A)
    (broadcastInDim S100000x64 ![0, 1] Facts₀.bcast_S1x64_S100000x64_0_1 x5)

/-- Read at `(n, o)`: the sum over the edges landing on row `n`, plus the bias at `o`. -/
theorem tailOf_apply (x5 : FVec Ideal S1x64 .f32) (x6 : IVec S1600000 32) (A : FVec Ideal S1600000x64 .f32)
    (n : Fin 100000) (o : Fin 64) :
    tailOf x5 x6 A (ix2 n o) = (∑ e : Fin 1600000, if Spec.lands x6 e n then A (ix2 e o) else 0) + x5 (ix2 0 o) := by
  unfold tailOf
  rw [addf_apply, scatter_eq, scatterAdd_rows_apply]
  have hz : broadcastInDim S100000x64 ![] Facts₀.bcast_S_S100000x64 (constant (F := Ideal) S_ .f32 0x00000000#32) (ix2 n o) = 0 := by
    rw [broadcastInDim_apply _ Facts₀.bcast_S_S100000x64 _ (ix2 n o) ix0 (fun a => a.elim0), constant_apply]
    exact Ideal.ofBits_zero_f32
  have hb : broadcastInDim S100000x64 ![0, 1] Facts₀.bcast_S1x64_S100000x64_0_1 x5 (ix2 n o) = x5 (ix2 0 o) :=
    broadcastInDim_apply _ Facts₀.bcast_S1x64_S100000x64_0_1 x5 (ix2 n o) (ix2 0 o) (fun a => match a with
      | ⟨0, _⟩ => by show 0 = if (1 : Nat) = 1 then 0 else n.val; rw [if_pos rfl]
      | ⟨1, _⟩ => by show o.val = if (64 : Nat) = 1 then 0 else o.val; rw [if_neg (by decide)])
  rw [hz, hb, zero_add]
  refine congrArg (· + x5 (ix2 0 o)) (Finset.sum_congr rfl fun e _ => ?_)
  have hr : broadcastInDim S1600000x1 ![0] Facts₀.bcast_S1600000_S1600000x1_0 x6 (ix2 e 0) = x6 (ix1 e) :=
    broadcastInDim_apply _ Facts₀.bcast_S1600000_S1600000x1_0 x6 (ix2 e 0) (ix1 e) (fun a => match a with
      | ⟨0, _⟩ => by show e.val = if (1600000 : Nat) = 1 then 0 else e.val; rw [if_neg (by decide)])
  rw [hr]

theorem tail_re (c : Dev nD) :
    Pipeline.afterTail₀ cfgs (dats m) 0 (V0 m) [hostOps1] c main_v24
      = tailOf (m ((c : Thread nD τ).loc main_arg5)) (m ((c : Thread nD τ).loc main_arg6)) ((dats m 0 c).arrAt 4 cfg0.N) := by
  unfold Pipeline.afterTail₀
  show StableHlo.after hostOps1 _ (Proc.devRef .tc main_v24) = _
  after_results
  rw [Pipeline.withArrays_of_ne _ c (V0 m c) _ main_arg6 (by exact (by decide : ∀ w, Pipeline.arrRef spec0 w ≠ main_arg6)),
    Pipeline.withArrays_of_ne _ c (V0 m c) _ main_arg5 (by exact (by decide : ∀ w, Pipeline.arrRef spec0 w ≠ main_arg5)),
    show Pipeline.withArrays (cfgs 0).spec c (V0 m c) (fun w => (dats m 0 c).arrAt w (cfgs 0).N) (Proc.devRef .tc main_v19_0)
      = (dats m 0 c).arrAt 4 cfg0.N from Pipeline.withArrays_arr spec0 launch0.win.arr_inj c _ _ 4]
  show tailOf (V m c main_arg5) (V m c main_arg6) _ = _
  rw [V_main_arg5, V_main_arg6]

theorem tail_im (c : Dev nD) :
    Pipeline.afterTail₀ cfgs (dats m) 0 (V0 m) [hostOps1] c main_v29
      = tailOf (m ((c : Thread nD τ).loc main_arg5)) (m ((c : Thread nD τ).loc main_arg6)) ((dats m 0 c).arrAt 5 cfg0.N) := by
  unfold Pipeline.afterTail₀
  show StableHlo.after hostOps1 _ (Proc.devRef .tc main_v29) = _
  after_results
  rw [Pipeline.withArrays_of_ne _ c (V0 m c) _ main_arg6 (by exact (by decide : ∀ w, Pipeline.arrRef spec0 w ≠ main_arg6)),
    Pipeline.withArrays_of_ne _ c (V0 m c) _ main_arg5 (by exact (by decide : ∀ w, Pipeline.arrRef spec0 w ≠ main_arg5)),
    show Pipeline.withArrays (cfgs 0).spec c (V0 m c) (fun w => (dats m 0 c).arrAt w (cfgs 0).N) (Proc.devRef .tc main_v19_1)
      = (dats m 0 c).arrAt 5 cfg0.N from Pipeline.withArrays_arr spec0 launch0.win.arr_inj c _ _ 5]
  show tailOf (V m c main_arg5) (V m c main_arg6) _ = _
  rw [V_main_arg5, V_main_arg6]

/-! ## The two results, element by element -/

theorem contribRe_apply (a0 a1 : S1600000x64.Idx → EReal) (a2 : S1600000x4.Idx → EReal) (a3 : S2x64x64.Idx → EReal)
    (e : Fin 1600000) (o : Fin 64) :
    contribRe a0 a1 a2 a3 (ix2 e o)
      = (∑ c : Fin 64, (a2 (ix2 e 0) * a0 (ix2 e c) - a2 (ix2 e 2) * a1 (ix2 e c)) * a3 (ix3 0 c o))
        + ∑ c : Fin 64, (a2 (ix2 e 1) * a0 (ix2 e c) - a2 (ix2 e 3) * a1 (ix2 e c)) * a3 (ix3 1 c o) := rfl

theorem contribIm_apply (a0 a1 : S1600000x64.Idx → EReal) (a2 : S1600000x4.Idx → EReal) (a3 : S2x64x64.Idx → EReal)
    (e : Fin 1600000) (o : Fin 64) :
    contribIm a0 a1 a2 a3 (ix2 e o)
      = (∑ c : Fin 64, (a2 (ix2 e 2) * a0 (ix2 e c) + a2 (ix2 e 0) * a1 (ix2 e c)) * a3 (ix3 0 c o))
        + ∑ c : Fin 64, (a2 (ix2 e 3) * a0 (ix2 e c) + a2 (ix2 e 1) * a1 (ix2 e c)) * a3 (ix3 1 c o) := rfl

/-- The kernel program's real result at `(n, o)` is the edge-first form. -/
theorem real_apply (c : Dev nD) (n : Fin 100000) (o : Fin 64) :
    Pipeline.afterTail₀ cfgs (dats m) 0 (V0 m) [hostOps1] c main_v24 (ix2 n o)
      = Spec.edgeFirstRe
          (gatheredRe (m ((c : Thread nD τ).loc main_arg0)) (m ((c : Thread nD τ).loc main_arg7)))
          (gatheredIm (m ((c : Thread nD τ).loc main_arg1)) (m ((c : Thread nD τ).loc main_arg7)))
          (m ((c : Thread nD τ).loc main_arg2)) (m ((c : Thread nD τ).loc main_arg3))
          (m ((c : Thread nD τ).loc main_arg4)) (m ((c : Thread nD τ).loc main_arg5))
          (m ((c : Thread nD τ).loc main_arg6)) n o := by
  rw [tail_re, tailOf_apply, final_re, V_gatheredRe, V_gatheredIm, V_scales, V_main_arg4]
  unfold Spec.edgeFirstRe
  refine congrArg (· + m ((c : Thread nD τ).loc main_arg5) (ix2 0 o)) (Finset.sum_congr rfl fun e _ => ?_)
  rw [contribRe_apply, scales_0, scales_1, scales_2, scales_3]

/-- The kernel program's imaginary result at `(n, o)` is the edge-first form. -/
theorem imag_apply (c : Dev nD) (n : Fin 100000) (o : Fin 64) :
    Pipeline.afterTail₀ cfgs (dats m) 0 (V0 m) [hostOps1] c main_v29 (ix2 n o)
      = Spec.edgeFirstIm
          (gatheredRe (m ((c : Thread nD τ).loc main_arg0)) (m ((c : Thread nD τ).loc main_arg7)))
          (gatheredIm (m ((c : Thread nD τ).loc main_arg1)) (m ((c : Thread nD τ).loc main_arg7)))
          (m ((c : Thread nD τ).loc main_arg2)) (m ((c : Thread nD τ).loc main_arg3))
          (m ((c : Thread nD τ).loc main_arg4)) (m ((c : Thread nD τ).loc main_arg5))
          (m ((c : Thread nD τ).loc main_arg6)) n o := by
  rw [tail_im, tailOf_apply, final_im, V_gatheredRe, V_gatheredIm, V_scales, V_main_arg4]
  unfold Spec.edgeFirstIm
  refine congrArg (· + m ((c : Thread nD τ).loc main_arg5) (ix2 0 o)) (Finset.sum_congr rfl fun e _ => ?_)
  rw [contribIm_apply, scales_0, scales_1, scales_2, scales_3]

/-! ## The run, read -/

/-- Every weakly fair execution of the kernel program terminates with both results at what the lines after the region
    compute from the two output arrays, the arguments unchanged. -/
theorem run : θ_run defs (onTc (τ := τ) (main (F := Ideal))) ⟨m, fun _ => 0, ρ⟩ fun r => ∀ c : Dev nD,
      r.2.mem ((c.tc : Thread nD τ).loc main_v24) = Pipeline.afterTail₀ cfgs (dats m) 0 (V0 m) [hostOps1] c main_v24
      ∧ r.2.mem ((c.tc : Thread nD τ).loc main_v29) = Pipeline.afterTail₀ cfgs (dats m) 0 (V0 m) [hostOps1] c main_v29
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨(h c).2 main_v24 (Pipeline.mem_restRefs_of main_v24 (by decide) (by decide)),
      (h c).2 main_v29 (Pipeline.mem_restRefs_of main_v29 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.HostValue
-- ==== Proof.lean ====
/-
  A two-term complex spectral graph convolution: 100000 nodes, 1600000 edges, 64 channels.

  With `XR`, `XI` the real and imaginary features of each edge's source node, `Lr`, `Li` the real and imaginary edge
  weights of the terms k = 0, 1, `W` the two 64×64 channel mixers and `B` the bias row, both programs compute
      real[n, o] = Σ_{e → n} Σ_k Σ_c (Lr k e · XR e c − Li k e · XI e c) · W k c o + B o
      imag[n, o] = Σ_{e → n} Σ_k Σ_c (Li k e · XR e c + Lr k e · XI e c) · W k c o + B o,
  where `e → n` says edge `e`'s row index is `n`.  The kernel program mixes channels per edge (a grid of 250 steps of
  6400 edges, two matrix products per step and part) and sums the edges of each row afterwards (edge-first: Proof/KernelBlock,
  KernelArrays, KernelHost); the reference sums the edges of each row per term and channel first and mixes channels
  afterwards (node-first: Proof/RefValue).  The gathers are the same function of the same arguments on both sides
  and are never opened: all that is used of them is that a gathered entry is an entry of the feature array.  A scatter-add
  from zero, read at an element, is the sum over the edges landing there (Proof/LibScatterRows).  The two forms agree by
  distributivity and the exchange of finite sums, which hold because the precondition makes every feature, weight and
  mixer entry a real number (Proof/Finite, Proof/Algebra); the bias is the same last summand on both sides.
-/
import proofs.«179885_j9560597201099_1_alg».proof.Defs
import proofs.«179885_j9560597201099_1_alg».proof.Proof.Gen.Kernel
import proofs.«179885_j9560597201099_1_alg».proof.Proof.Gen.Kernel.Skeleton
import proofs.«179885_j9560597201099_1_alg».proof.Proof.Gen.Kernel.Launch
import proofs.«179885_j9560597201099_1_alg».proof.Proof.Gen.Kernel.Points
import proofs.«179885_j9560597201099_1_alg».proof.Proof.Gen.Kernel.Frame
import proofs.«179885_j9560597201099_1_alg».proof.Proof.Gen.KernelIdeal
import proofs.«179885_j9560597201099_1_alg».proof.Proof.Gen.KernelIdeal.Skeleton
import proofs.«179885_j9560597201099_1_alg».proof.Proof.Gen.KernelIdeal.Launch
import proofs.«179885_j9560597201099_1_alg».proof.Proof.Gen.KernelIdeal.Points
import proofs.«179885_j9560597201099_1_alg».proof.Proof.Gen.KernelIdeal.Frame
import proofs.«179885_j9560597201099_1_alg».proof.Proof.Gen.ReferenceIdeal
import proofs.«179885_j9560597201099_1_alg».proof.Proof.Gen.Pre_finite_inputs
import proofs.«179885_j9560597201099_1_alg».proof.Proof.Gen.ReferenceIdeal.Run
import proofs.«179885_j9560597201099_1_alg».proof.Proof.Gen.ReferenceIdeal.Read
import proofs.«179885_j9560597201099_1_alg».proof.Proof.Spec
import proofs.«179885_j9560597201099_1_alg».proof.Proof.Algebra
import proofs.«179885_j9560597201099_1_alg».proof.Proof.Finite
import proofs.«179885_j9560597201099_1_alg».proof.Proof.RefValue
import proofs.«179885_j9560597201099_1_alg».proof.Proof.KernelHost
import Idealize.ShloMosaic.Adequacy
import Idealize.ShloMosaic.Init

noncomputable section

namespace Cert.Proof

open Idealize.ShloMosaic Idealize.SL.Sem Idealize.ShloMosaic.ValueIdx

/-- Both programs gather with the same dimension numbers, through the same index arithmetic, from the same features
    (the kernel program's change of float format before its gather is the identity over the extended reals). -/
theorem gathered_re_same (x0 : FVec Ideal Cert.KernelIdeal.S100000x64 .f32) (x7 : IVec Cert.KernelIdeal.S1600000 32) :
    Cert.ReferenceIdeal.RefValue.gatheredRe x0 x7 = Cert.KernelIdeal.HostValue.gatheredRe x0 x7 := rfl

theorem gathered_im_same (x1 : FVec Ideal Cert.KernelIdeal.S100000x64 .f32) (x7 : IVec Cert.KernelIdeal.S1600000 32) :
    Cert.ReferenceIdeal.RefValue.gatheredIm x1 x7 = Cert.KernelIdeal.HostValue.gatheredIm x1 x7 := rfl

/-- A gathered entry is an entry of the feature array, so it is a real number when they all are. -/
theorem gathered_re_real (x0 : FVec Ideal Cert.KernelIdeal.S100000x64 .f32) (x7 : IVec Cert.KernelIdeal.S1600000 32)
    (h : ∀ i, ∃ r : ℝ, x0 i = (r : EReal)) : ∀ j, ∃ r : ℝ, Cert.KernelIdeal.HostValue.gatheredRe x0 x7 j = (r : EReal) :=
  fun _ => h _

theorem gathered_im_real (x1 : FVec Ideal Cert.KernelIdeal.S100000x64 .f32) (x7 : IVec Cert.KernelIdeal.S1600000 32)
    (h : ∀ i, ∃ r : ℝ, x1 i = (r : EReal)) : ∀ j, ∃ r : ℝ, Cert.KernelIdeal.HostValue.gatheredIm x1 x7 j = (r : EReal) :=
  fun _ => h _

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The two idealized programs end with equal results: the kernel program's are the edge-first form, the reference's the
    node-first form of the same arrays, and the two forms agree where every entry is real. -/
theorem algebraic : Cert.algebraic_KernelIdeal_ReferenceIdeal := by
  intro m ρ m' ρ' hpre hagree
  refine ⟨fun c => Pipeline.afterTail₀ Cert.KernelIdeal.cfgs (Cert.KernelIdeal.Gen.dats m) 0 (Cert.KernelIdeal.Gen.V0 m)
      [Cert.KernelIdeal.Gen.hostOps1] c Cert.KernelIdeal.main_v24,
    fun c => Pipeline.afterTail₀ Cert.KernelIdeal.cfgs (Cert.KernelIdeal.Gen.dats m) 0 (Cert.KernelIdeal.Gen.V0 m)
      [Cert.KernelIdeal.Gen.hostOps1] c Cert.KernelIdeal.main_v29,
    Cert.KernelIdeal.HostValue.run m ρ, ?_⟩
  refine (θ_run Cert.ReferenceIdeal.defs _ _).mono (fun _ h c => ?_) (Cert.ReferenceIdeal.Value.run (F := Ideal) m' ρ')
  obtain ⟨h70, h73, hargs⟩ := h c
  obtain ⟨g0, g1, g2, g3, g4, g5, g6, g7⟩ := hagree c
  obtain ⟨f0, f1, f2, f3, f4⟩ := Cert.Finite.real_of_pre _ _ _ _ _ _ _ _ (hpre c)
  refine ⟨h70.trans ?_, h73.trans ?_, hargs⟩
  · rw [Cert.ReferenceIdeal.Read.val_main_v70_eq, g0, g1, g2, g3, g4, g5, g6, g7]
    show _ = Pipeline.afterTail₀ Cert.KernelIdeal.cfgs (Cert.KernelIdeal.Gen.dats m) 0 (Cert.KernelIdeal.Gen.V0 m)
      [Cert.KernelIdeal.Gen.hostOps1] c Cert.KernelIdeal.main_v24
    funext j
    obtain ⟨n, o, rfl⟩ : ∃ (n : Fin 100000) (o : Fin 64), j = ix2 n o := ⟨j 0, j 1, eq_ix2 j⟩
    rw [Cert.ReferenceIdeal.RefValue.real_apply, Cert.KernelIdeal.HostValue.real_apply, gathered_re_same, gathered_im_same]
    exact (Cert.Spec.edgeFirstRe_eq_nodeFirstRe _ _ _ _ _ _ _ (gathered_re_real _ _ f0) (gathered_im_real _ _ f1) f2 f3 f4 n o).symm
  · rw [Cert.ReferenceIdeal.Read.val_main_v73_eq, g0, g1, g2, g3, g4, g5, g6, g7]
    show _ = Pipeline.afterTail₀ Cert.KernelIdeal.cfgs (Cert.KernelIdeal.Gen.dats m) 0 (Cert.KernelIdeal.Gen.V0 m)
      [Cert.KernelIdeal.Gen.hostOps1] c Cert.KernelIdeal.main_v29
    funext j
    obtain ⟨n, o, rfl⟩ : ∃ (n : Fin 100000) (o : Fin 64), j = ix2 n o := ⟨j 0, j 1, eq_ix2 j⟩
    rw [Cert.ReferenceIdeal.RefValue.imag_apply, Cert.KernelIdeal.HostValue.imag_apply, gathered_re_same, gathered_im_same]
    exact (Cert.Spec.edgeFirstIm_eq_nodeFirstIm _ _ _ _ _ _ _ (gathered_re_real _ _ f0) (gathered_im_real _ _ f1) f2 f3 f4 n o).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
